-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.truncf_extf.Statement Cert.KernelIdeal.S1024x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16 : Shape := ⟨2, ![10000, 16]⟩
abbrev S144x16 : Shape := ⟨2, ![144, 16]⟩
abbrev S1x16 : Shape := ⟨2, ![1, 16]⟩
abbrev S1 : Shape := ⟨1, ![1]⟩
abbrev S4000000 : Shape := ⟨1, ![4000000]⟩
abbrev S_ : Shape := ⟨0, ![]⟩

class Facts : Prop where
  bcast_S_S10000x16 : S_.BroadcastsInDim S10000x16 (![] : Fin 0 → Fin S10000x16.rank)
  reducesTo_S10000x16_S_d0_1 : S10000x16.ReducesTo [0, 1] S_
  h_S_ : 0 < S_.numel
  bcast_S_S144x16 : S_.BroadcastsInDim S144x16 (![] : Fin 0 → Fin S144x16.rank)
  reducesTo_S144x16_S_d0_1 : S144x16.ReducesTo [0, 1] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_
  bcast_S_S4000000 : S_.BroadcastsInDim S4000000 (![] : Fin 0 → Fin S4000000.rank)
  reducesTo_S4000000_S_d0 : S4000000.ReducesTo [0] S_

variable [Facts]

def fn_part2 {F : FTy → Type} [FloatOps F] (main_arg6 : IVec S4000000 32) (main_arg7 : IVec S4000000 32) (main_v30 : IVec S_ 1) (main_v32 : IVec S4000000 1) (main_c_12 : IVec S_ 32) : IVec S_ 1 :=
  let main_v33 : IVec S4000000 32 := broadcastInDim S4000000 ![] bcast_S_S4000000 main_c_12
  let main_v34 : IVec S4000000 1 := cmpi .slt main_arg6 main_v33
  let main_v35 : IVec S4000000 1 := andi main_v32 main_v34
  let main_c_13 : IVec S_ 1 := constantI S_ 1 1#1
  let main_v36 : IVec S_ 1 := (fun x v => Host.reduce IntOp.andi x v reducesTo_S4000000_S_d0 h_S_) main_v35 main_c_13
  let main_v37 : IVec S_ 1 := andi main_v30 main_v36
  let main_c_14 : IVec S_ 32 := constantI S_ 32 0#32
  let main_v38 : IVec S4000000 32 := broadcastInDim S4000000 ![] bcast_S_S4000000 main_c_14
  let main_v39 : IVec S4000000 1 := cmpi .sge main_arg7 main_v38
  let main_c_15 : IVec S_ 32 := constantI S_ 32 144#32
  let main_v40 : IVec S4000000 32 := broadcastInDim S4000000 ![] bcast_S_S4000000 main_c_15
  let main_v41 : IVec S4000000 1 := cmpi .slt main_arg7 main_v40
  let main_v42 : IVec S4000000 1 := andi main_v39 main_v41
  let main_c_16 : IVec S_ 1 := constantI S_ 1 1#1
  let main_v43 : IVec S_ 1 := (fun x v => Host.reduce IntOp.andi x v reducesTo_S4000000_S_d0 h_S_) main_v42 main_c_16
  let main_v44 : IVec S_ 1 := andi main_v37 main_v43
  main_v44

def fn_part1 {F : FTy → Type} [FloatOps F] (main_arg4 : FVec F S1 .f32) (main_arg5 : IVec S4000000 32) (main_arg6 : IVec S4000000 32) (main_arg7 : IVec S4000000 32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S4000000 32 := broadcastInDim S4000000 ![] bcast_S_S4000000 main_c_8
  let main_v25 : IVec S4000000 1 := cmpi .sge main_arg5 main_v24
  let main_c_9 : IVec S_ 32 := constantI S_ 32 10000#32
  let main_v26 : IVec S4000000 32 := broadcastInDim S4000000 ![] bcast_S_S4000000 main_c_9
  let main_v27 : IVec S4000000 1 := cmpi .slt main_arg5 main_v26
  let main_v28 : IVec S4000000 1 := andi main_v25 main_v27
  let main_c_10 : IVec S_ 1 := constantI S_ 1 1#1
  let main_v29 : IVec S_ 1 := (fun x v => Host.reduce IntOp.andi x v reducesTo_S4000000_S_d0 h_S_) main_v28 main_c_10
  let main_v30 : IVec S_ 1 := andi main_v23 main_v29
  let main_c_11 : IVec S_ 32 := constantI S_ 32 0#32
  let main_v31 : IVec S4000000 32 := broadcastInDim S4000000 ![] bcast_S_S4000000 main_c_11
  let main_v32 : IVec S4000000 1 := cmpi .sge main_arg6 main_v31
  let main_c_12 : IVec S_ 32 := constantI S_ 32 144#32
  fn_part2 (F := F) main_arg6 main_arg7 main_v30 main_v32 main_c_12

def fn {F : FTy → Type} [FloatOps F] (main_arg0 : FVec F S10000x16 .f32) (main_arg1 : FVec F S144x16 .f32) (main_arg2 : FVec F S144x16 .f32) (main_arg3 : FVec F S1x16 .f32) (main_arg4 : FVec F S1 .f32) (main_arg5 : IVec S4000000 32) (main_arg6 : IVec S4000000 32) (main_arg7 : IVec S4000000 32) : IVec S_ 1 :=
  let main_v0 : FVec F S10000x16 .f32 := Host.absf main_arg0
  let main_cst : FVec F S_ .f32 := constant S_ .f32 0x7F800000#32
  let main_v1 : FVec F S10000x16 .f32 := broadcastInDim S10000x16 ![] bcast_S_S10000x16 main_cst
  let main_v2 : IVec S10000x16 1 := cmpf .olt main_v0 main_v1
  let main_c : IVec S_ 1 := constantI S_ 1 1#1
  let main_v3 : IVec S_ 1 := (fun x v => Host.reduce IntOp.andi x v reducesTo_S10000x16_S_d0_1 h_S_) main_v2 main_c
  let main_v4 : FVec F S144x16 .f32 := Host.absf main_arg1
  let main_cst_0 : FVec F S_ .f32 := constant S_ .f32 0x7F800000#32
  let main_v5 : FVec F S144x16 .f32 := broadcastInDim S144x16 ![] bcast_S_S144x16 main_cst_0
  let main_v6 : IVec S144x16 1 := cmpf .olt main_v4 main_v5
  let main_c_1 : IVec S_ 1 := constantI S_ 1 1#1
  let main_v7 : IVec S_ 1 := (fun x v => Host.reduce IntOp.andi x v reducesTo_S144x16_S_d0_1 h_S_) main_v6 main_c_1
  let main_v8 : IVec S_ 1 := andi main_v3 main_v7
  let main_v9 : FVec F S144x16 .f32 := Host.absf main_arg2
  let main_cst_2 : FVec F S_ .f32 := constant S_ .f32 0x7F800000#32
  let main_v10 : FVec F S144x16 .f32 := broadcastInDim S144x16 ![] bcast_S_S144x16 main_cst_2
  let main_v11 : IVec S144x16 1 := cmpf .olt main_v9 main_v10
  let main_c_3 : IVec S_ 1 := constantI S_ 1 1#1
  let main_v12 : IVec S_ 1 := (fun x v => Host.reduce IntOp.andi x v reducesTo_S144x16_S_d0_1 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_arg6 main_arg7 main_v13 main_v16
-- ==== Kernel.lean ====
abbrev S10000x16 : Shape := ⟨2, ![10000, 16]⟩
abbrev S144x16 : Shape := ⟨2, ![144, 16]⟩
abbrev S1x16 : Shape := ⟨2, ![1, 16]⟩
abbrev S1 : Shape := ⟨1, ![1]⟩
abbrev S4000000 : Shape := ⟨1, ![4000000]⟩
abbrev S_ : Shape := ⟨0, ![]⟩
abbrev S4005888 : Shape := ⟨1, ![4005888]⟩
abbrev S10240x16 : Shape := ⟨2, ![10240, 16]⟩
abbrev S80x128x16 : Shape := ⟨3, ![80, 128, 16]⟩
abbrev S80x16x128 : Shape := ⟨3, ![80, 16, 128]⟩
abbrev S80x2048 : Shape := ⟨2, ![80, 2048]⟩
abbrev S256x16 : Shape := ⟨2, ![256, 16]⟩
abbrev S8192 : Shape := ⟨1, ![8192]⟩
abbrev S1024x80 : Shape := ⟨2, ![1024, 80]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩
abbrev S1024x2048 : Shape := ⟨2, ![1024, 2048]⟩
abbrev S1024x16x128 : Shape := ⟨3, ![1024, 16, 128]⟩
abbrev S1024x1x128 : Shape := ⟨3, ![1024, 1, 128]⟩
abbrev S1024x16 : Shape := ⟨2, ![1024, 16]⟩

abbrev nBuf : Space → Nat
  | .hbm => 36
  | .vmem => 12
  | .smem => 0
  | _ => 0

abbrev bufTy : (tb : Table) → Fin (tcTables nBuf tb) → BufTy
  | .hbm, ⟨0, _⟩ => ⟨S10000x16, .f32⟩
  | .hbm, ⟨1, _⟩ => ⟨S144x16, .f32⟩
  | .hbm, ⟨2, _⟩ => ⟨S144x16, .f32⟩
  | .hbm, ⟨3, _⟩ => ⟨S1x16, .f32⟩
  | .hbm, ⟨4, _⟩ => ⟨S1, .f32⟩
  | .hbm, ⟨5, _⟩ => ⟨S4000000, .i32⟩
  | .hbm, ⟨6, _⟩ => ⟨S4000000, .i32⟩
  | .hbm, ⟨7, _⟩ => ⟨S4000000, .i32⟩
  | .hbm, ⟨8, _⟩ => ⟨S_, .i32⟩
  | .hbm, ⟨9, _⟩ => ⟨S_, .i32⟩
  | .hbm, ⟨10, _⟩ => ⟨S4005888, .i32⟩
  | .hbm, ⟨11, _⟩ => ⟨S_, .i32⟩
  | .hbm, ⟨12, _⟩ => ⟨S_, .i32⟩
  | .hbm, ⟨13, _⟩ => ⟨S4005888, .i32⟩
  | .hbm, ⟨14, _⟩ => ⟨S_, .i32⟩
  | .hbm, ⟨15, _⟩ => ⟨S_, .i32⟩
  | .hbm, ⟨16, _⟩ => ⟨S4005888, .i32⟩
  | .hbm, ⟨17, _⟩ => ⟨S_, .i32⟩
  | .hbm, ⟨18, _⟩ => ⟨S_, .f32⟩
  | .hbm, ⟨19, _⟩ => ⟨S10240x16, .f32⟩
  | .hbm, ⟨20, _⟩ => ⟨S80x128x16, .f32⟩
  | .hbm, ⟨21, _⟩ => ⟨S80x16x128, .f32⟩
  | .hbm, ⟨22, _⟩ => ⟨S80x2048, .f32⟩
  | .hbm, ⟨23, _⟩ => ⟨S80x2048, .bf16⟩
  | .hbm, ⟨24, _⟩ => ⟨S_, .i32⟩
  | .hbm, ⟨25, _⟩ => ⟨S_, .f32⟩
  | .hbm, ⟨26, _⟩ => ⟨S256x16, .f32⟩
  | .hbm, ⟨27, _⟩ => ⟨S256x16, .bf16⟩
  | .hbm, ⟨28, _⟩ => ⟨S144x16, .f32⟩
  | .hbm, ⟨29, _⟩ => ⟨S144x16, .f32⟩
  | .hbm, ⟨30, _⟩ => ⟨S_, .i32⟩
  | .hbm, ⟨31, _⟩ => ⟨S_, .f32⟩
  | .hbm, ⟨32, _⟩ => ⟨S256x16, .f32⟩
  | .hbm, ⟨33, _⟩ => ⟨S256x16, .bf16⟩
  | .hbm, ⟨34, _⟩ => ⟨S4005888, .f32⟩
  | .hbm, ⟨35, _⟩ => ⟨S4000000, .f32⟩
  | .local _ .vmem, ⟨0, _⟩ => ⟨S8192, .i32⟩
  | .local _ .vmem, ⟨1, _⟩ => ⟨S8192, .i32⟩
  | .local _ .vmem, ⟨2, _⟩ => ⟨S8192, .i32⟩
  | .local _ .vmem, ⟨3, _⟩ => ⟨S8192, .i32⟩
  | .local _ .vmem, ⟨4, _⟩ => ⟨S8192, .i32⟩
  | .local _ .vmem, ⟨5, _⟩ => ⟨S8192, .i32⟩
  | .local _ .vmem, ⟨6, _⟩ => ⟨S80x2048, .bf16⟩
  | .local _ .vmem, ⟨7, _⟩ => ⟨S256x16, .bf16⟩
  | .local _ .vmem, ⟨8, _⟩ => ⟨S256x16, .bf16⟩
  | .local _ .vmem, ⟨9, _⟩ => ⟨S1, .f32⟩
  | .local _ .vmem, ⟨10, _⟩ => ⟨S8192, .f32⟩
  | .local _ .vmem, ⟨11, _⟩ => ⟨S8192, .f32⟩
  | _, _ => ⟨S10000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_c_1 : Ref sig .tc := ⟨.hbm, 14, rfl⟩
abbrev main_call2_v0 : Ref sig .tc := ⟨.hbm, 15, rfl⟩
abbrev main_v2 : Ref sig .tc := ⟨.hbm, 16, rfl⟩
abbrev main_c_2 : Ref sig .tc := ⟨.hbm, 17, rfl⟩
abbrev main_call3_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_3 : Ref sig .tc := ⟨.hbm, 24, rfl⟩
abbrev main_call4_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_4 : Ref sig .tc := ⟨.hbm, 30, rfl⟩
abbrev main_call5_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![489], ![false]⟩

@[reducible] def k0_t1_loop : Scf.Loop 32 :=
  let c0_i32 : BitVec 32 := 0#32
  let c8_i32 : BitVec 32 := 8#32
  let v11 : BitVec 32 := Scalar.addi c0_i32 c8_i32
  let c1_i32 : BitVec 32 := 1#32
  ⟨c0_i32, v11, c1_i32⟩
def k0_mult1 (k0_t1 : Fin k0_t1_loop.trips) : BitVec 32 :=
  let c0_i32_8 : BitVec 32 := 0#32
  let c0_i32 : BitVec 32 := 0#32
  let c1_i32 : BitVec 32 := 1#32
  let arg9 : BitVec 32 := Scf.iv c0_i32 c1_i32 k0_t1
  let c1_i32_7 : BitVec 32 := 1#32
  let v12 : BitVec 32 := Scalar.muli arg9 c1_i32_7
  let v13 : BitVec 32 := Scalar.addi c0_i32_8 v12
  let c1024_i32 : BitVec 32 := 1024#32
  let v14 : BitVec 32 := Scalar.muli v13 c1024_i32
  v14
def k0_off1 (k0_t1 : Fin k0_t1_loop.trips) : Fin 1 → Nat :=
  let c0_i32_8 : BitVec 32 := 0#32
  let c0_i32 : BitVec 32 := 0#32
  let c1_i32 : BitVec 32 := 1#32
  let arg9 : BitVec 32 := Scf.iv c0_i32 c1_i32 k0_t1
  let c1_i32_7 : BitVec 32 := 1#32
  let v12 : BitVec 32 := Scalar.muli arg9 c1_i32_7
  let v13 : BitVec 32 := Scalar.addi c0_i32_8 v12
  let c1024_i32 : BitVec 32 := 1024#32
  let v14 : BitVec 32 := Scalar.muli v13 c1024_i32
  let v15 : BitVec 32 := v14
  let v16 : Index := Scalar.indexCast v15
  ![v16.toNat]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S80x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S4000000_S4005888_058880 : S4000000.Pads (![0] : Fin 1 → Nat) ![5888] ![0] S4005888
  h_S_ : 0 < S_.numel
  pads_S10000x16_S10240x16_02400_000 : S10000x16.Pads (![0, 0] : Fin 2 → Nat) ![240, 0] ![0, 0] S10240x16
  shapeCasts_S10240x16_S80x128x16 : S10240x16.ShapeCasts S80x128x16
  transposes_S80x128x16_S80x16x128_0_2_1 : S80x128x16.Transposes [0, 2, 1] S80x16x128
  shapeCasts_S80x16x128_S80x2048 : S80x16x128.ShapeCasts S80x2048
  bitsLt_bf16_f32 : FTy.bits .bf16 < FTy.bits .f32
  pads_S144x16_S256x16_01120_000 : S144x16.Pads (![0, 0] : Fin 2 → Nat) ![112, 0] ![0, 0] S256x16
  bcast_S1x16_S144x16_0_1 : S1x16.BroadcastsInDim S144x16 (![0, 1] : Fin 2 → Fin S144x16.rank)
  inb_S80x2048_S80x2048_0_0 : ∀ a, (![0, 0] : Fin 2 → Nat) a + S80x2048.size a ≤ S80x2048.size a
  h_S80x2048 : 0 < S80x2048.numel
  shapeCasts_S80x2048_S80x2048 : S80x2048.ShapeCasts S80x2048
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1_S1_0 : ∀ a, (![0] : Fin 1 → Nat) a + S1.size a ≤ S1.size a
  h_S1 : 0 < S1.numel
  inpos_S1_p0 : ∀ a, (![0] : Fin 1 → Nat) a < S1.size a
  iota_S1024x80_d1_w32 : S1024x80.Iotas .tc 32 [1]
  iota_S1024x128_d1_w32 : S1024x128.Iotas .tc 32 [1]
  iota_S1024x256_d1_w32 : S1024x256.Iotas .tc 32 [1]
  h_S1024 : 0 < S1024.numel
  shapeCasts_S1024_S1024 : S1024.ShapeCasts S1024
  shapeCasts_S1024_S1024x1 : S1024.ShapeCasts S1024x1
  broadcasts_S1024x1_S1024x80 : S1024x1.Broadcasts S1024x80
  natLt_1_32 : 1 < 32
  broadcasts_S1024x1_S1024x128 : S1024x1.Broadcasts S1024x128
  broadcasts_S1024x1_S1024x256 : S1024x1.Broadcasts S1024x256
  shapeCasts_S1024x2048_S1024x16x128 : S1024x2048.ShapeCasts S1024x16x128
  shapeCasts_S1024x128_S1024x1x128 : S1024x128.ShapeCasts S1024x1x128
  broadcasts_S1024x1x128_S1024x16x128 : S1024x1x128.Broadcasts S1024x16x128
  reduces_S1024x16x128_S1024x16 : S1024x16x128.Reduces [2] S1024x16
  reduces_S1024x16_S1024 : S1024x16.Reduces [1] S1024
  slices_S4005888_S4000000_0 : S4005888.Slices ![0] S4000000
  dot_S1024x80_S80x2048_S1024x2048_1_0_0_1_n_n_wf : DotDims.WF S1024x80 S80x2048 S1024x2048 [1] [0] [0] [1] [] []
  dot_S1024x256_S256x16_S1024x16_1_0_0_1_n_n_wf : DotDims.WF S1024x256 S256x16 S1024x16 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192.size a ≤ S4005888.size a
  hwx0_0 : ∀ i : grid0.Coords, EltTy.bits .i32 = 32 ∨ (Rect.block (s := S4005888) S8192.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4005888.size a
  hwx0_1 : ∀ i : grid0.Coords, EltTy.bits .i32 = 32 ∨ (Rect.block (s := S4005888) S8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S4005888.size a
  hwx0_2 : ∀ i : grid0.Coords, EltTy.bits .i32 = 32 ∨ (Rect.block (s := S4005888) S8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S80x2048.size a ≤ S80x2048.size a
  hwx0_3 : ∀ i : grid0.Coords, EltTy.bits .bf16 = 32 ∨ (Rect.block (s := S80x2048) S80x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S256x16.size a
  hwx0_4 : ∀ i : grid0.Coords, EltTy.bits .bf16 = 32 ∨ (Rect.block (s := S256x16) S256x16.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x16.size a ≤ S256x16.size a
  hwx0_5 : ∀ i : grid0.Coords, EltTy.bits .bf16 = 32 ∨ (Rect.block (s := S256x16) S256x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S4005888.size a
  hwx0_7 : ∀ i : grid0.Coords, EltTy.bits .f32 = 32 ∨ (Rect.block (s := S4005888) S8192.size (cc0_transform_7 i) (hinb0_7 i)).WholeWords (EltTy.packing .f32)

variable [Facts₀]

def dot_S1024x80_S80x2048_S1024x2048_1_0_0_1_n_n : DotDims S1024x80 S80x2048 S1024x2048 where
  lhsContracting := [1]
  rhsContracting := [0]
  lhsNonContracting := [0]
  rhsNonContracting := [1]
  lhsBatch := []
  rhsBatch := []
  wf := dot_S1024x80_S80x2048_S1024x2048_1_0_0_1_n_n_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf

abbrev win0_0 : Pipeline.Window sig grid0 :=
  Pipeline.Window.ofSpec (Memref.whole main_v0) S8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S80x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S10000x16 : Shape := ⟨2, ![10000, 16]⟩
abbrev S144x16 : Shape := ⟨2, ![144, 16]⟩
abbrev S1x16 : Shape := ⟨2, ![1, 16]⟩
abbrev S1 : Shape := ⟨1, ![1]⟩
abbrev S4000000 : Shape := ⟨1, ![4000000]⟩
abbrev S_ : Shape := ⟨0, ![]⟩
abbrev S4000000x1 : Shape := ⟨2, ![4000000, 1]⟩
abbrev S4000000x16 : Shape := ⟨2, ![4000000, 16]⟩
abbrev S16x1 : Shape := ⟨2, ![16, 1]⟩
abbrev S1x1 : Shape := ⟨2, ![1, 1]⟩

abbrev nBuf : Space → Nat
  | .hbm => 51
  | .vmem => 0
  | .smem => 0
  | _ => 0

abbrev bufTy : (tb : Table) → Fin (tcTables nBuf tb) → BufTy
  | .hbm, ⟨0, _⟩ => ⟨S10000x16, .f32⟩
  | .hbm, ⟨1, _⟩ => ⟨S144x16, .f32⟩
  | .hbm, ⟨2, _⟩ => ⟨S144x16, .f32⟩
  | .hbm, ⟨3, _⟩ => ⟨S1x16, .f32⟩
  | .hbm, ⟨4, _⟩ => ⟨S1, .f32⟩
  | .hbm, ⟨5, _⟩ => ⟨S4000000, .i32⟩
  | .hbm, ⟨6, _⟩ => ⟨S4000000, .i32⟩
  | .hbm, ⟨7, _⟩ => ⟨S4000000, .i32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x16, .f32⟩
  | .hbm, ⟨17, _⟩ => ⟨S_, .i32⟩
  | .hbm, ⟨18, _⟩ => ⟨S4000000, .i32⟩
  | .hbm, ⟨19, _⟩ => ⟨S4000000, .i1⟩
  | .hbm, ⟨20, _⟩ => ⟨S_, .i32⟩
  | .hbm, ⟨21, _⟩ => ⟨S4000000, .i32⟩
  | .hbm, ⟨22, _⟩ => ⟨S4000000, .i32⟩
  | .hbm, ⟨23, _⟩ => ⟨S4000000, .i32⟩
  | .hbm, ⟨24, _⟩ => ⟨S4000000x1, .i32⟩
  | .hbm, ⟨25, _⟩ => ⟨S4000000x16, .f32⟩
  | .hbm, ⟨26, _⟩ => ⟨S_, .i32⟩
  | .hbm, ⟨27, _⟩ => ⟨S4000000, .i32⟩
  | .hbm, ⟨28, _⟩ => ⟨S4000000, .i1⟩
  | .hbm, ⟨29, _⟩ => ⟨S_, .i32⟩
  | .hbm, ⟨30, _⟩ => ⟨S4000000, .i32⟩
  | .hbm, ⟨31, _⟩ => ⟨S4000000, .i32⟩
  | .hbm, ⟨32, _⟩ => ⟨S4000000, .i32⟩
  | .hbm, ⟨33, _⟩ => ⟨S4000000x1, .i32⟩
  | .hbm, ⟨34, _⟩ => ⟨S4000000x16, .f32⟩
  | .hbm, ⟨35, _⟩ => ⟨S4000000x16, .f32⟩
  | .hbm, ⟨36, _⟩ => ⟨S4000000x16, .f32⟩
  | .hbm, ⟨37, _⟩ => ⟨S16x1, .f32⟩
  | .hbm, ⟨38, _⟩ => ⟨S4000000x1, .f32⟩
  | .hbm, ⟨39, _⟩ => ⟨S1x1, .f32⟩
  | .hbm, ⟨40, _⟩ => ⟨S4000000x1, .f32⟩
  | .hbm, ⟨41, _⟩ => ⟨S4000000x1, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S_, .f32⟩
  | .hbm, ⟨49, _⟩ => ⟨S4000000, .f32⟩
  | .hbm, ⟨50, _⟩ => ⟨S4000000, .f32⟩
  | _, _ => ⟨S10000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  bcast_S_S4000000 : S_.BroadcastsInDim S4000000 (![] : Fin 0 → Fin S4000000.rank)
  bcast_S4000000_S4000000x1_0 : S4000000.BroadcastsInDim S4000000x1 (![0] : Fin 1 → Fin S4000000x1.rank)
  transposes_S1x16_S16x1_1_0 : S1x16.Transposes [1, 0] S16x1
  bcast_S1_S1x1_1 : S1.BroadcastsInDim S1x1 (![1] : Fin 1 → Fin S1x1.rank)
  bcast_S1x1_S4000000x1_0_1 : S1x1.BroadcastsInDim S4000000x1 (![0, 1] : Fin 2 → Fin S4000000x1.rank)
  shapeCasts_S4000000x1_S4000000 : S4000000x1.ShapeCasts S4000000
  gather_S10000x16_S4000000x1_S4000000x16_1_0_n_n_0_1_116_wf : GatherDims.WF S10000x16 S4000000x1 S4000000x16 [1] [0] [] [0] [] 1 ![1, 16]
  gather_S144x16_S4000000x1_S4000000x16_1_0_n_n_0_1_116_wf : GatherDims.WF S144x16 S4000000x1 S4000000x16 [1] [0] [] [0] [] 1 ![1, 16]
  dot_S4000000x16_S16x1_S4000000x1_1_0_0_1_n_n_wf : DotDims.WF S4000000x16 S16x1 S4000000x1 [1] [0] [0] [1] [] []

variable [Facts₀]

def gather_S10000x16_S4000000x1_S4000000x16_1_0_n_n_0_1_116 : GatherDims S10000x16 S4000000x1 S4000000x16 where
  offsetDims := [1]
  collapsedSliceDims := [0]
  operandBatchingDims := []
  startIndicesBatchingDims := []
  startIndexMap := [0]
  indexVectorDim := 1
  sliceSizes := ![1, 16]
  wf := gather_S10000x16_S4000000x1_S4000000x16_1_0_n_n_0_1_116_wf
def gather_S144x16_S4000000x1_S4000000x16_1_0_n_n_0_1_116 : GatherDims S144x16 S4000000x1 S4000000x16 where
  offsetDims := [1]
  collapsedSliceDims := [0]
  operandBatchingDims := []
  startIndicesBatchingDims := []
  startIndexMap := [0]
  indexVectorDim := 1
  sliceSizes := ![1, 16]
  wf := gather_S144x16_S4000000x1_S4000000x16_1_0_n_n_0_1_116_wf
def dot_S4000000x16_S16x1_S4000000x1_1_0_0_1_n_n : DotDims S4000000x16 S16x1 S4000000x1 where
  lhsContracting := [1]
  rhsContracting := [0]
  lhsNonContracting := [0]
  rhsNonContracting := [1]
  lhsBatch := []
  rhsBatch := []
  wf := dot_S4000000x16_S16x1_S4000000x1_1_0_0_1_n_n_wf

class Facts : Prop extends Facts₀ where

variable [Facts]
-- ==== Proof.BlockPieces.lean ====
/-
  What one grid point's body leaves in the output block, as one function of the block's inputs.

  The body runs eight trips; trip k reads positions 1024 k .. 1024 k + 1023 of the three position blocks and stores
  1024 results at the same offset of the output block. So the block ends as one function of its index y: the result
  of trip y / 1024 at row y % 1024.
-/
import proofs.«414439_j30202210025786_3_alg».proof.Proof.Gen.KernelIdeal.Frame
import Idealize.ShloMosaic.Lib.Pipeline.Value
import Idealize.ShloMosaic.Lib.ValueIdx

set_option maxRecDepth 16384

noncomputable section

namespace Cert.KernelIdeal.BlockPieces

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The column numbers 0..79, 0..127, 0..255 along each row of 1024 rows. -/
abbrev IO80 : IVec S1024x80 32 := iota .tc S1024x80 32 [1] Facts₀.iota_S1024x80_d1_w32
abbrev IO128 : IVec S1024x128 32 := iota .tc S1024x128 32 [1] Facts₀.iota_S1024x128_d1_w32
abbrev IO256 : IVec S1024x256 32 := iota .tc S1024x256 32 [1] Facts₀.iota_S1024x256_d1_w32

/-- The 1024 consecutive entries of a block of 8192 that trip k works on. -/
abbrev tripRect (k : Fin k0_t1_loop.trips) : Rect S8192 :=
  Rect.unit (s := S8192) (k0_off1 k) S1024.size (Facts₀.k0_off1_inb k)

/-- Trip k's 1024 results, from the three position blocks, the three tables and the bias. -/
def tripPay (x0 x1 x2 : Vec F S8192 .i32) (x3 : Vec F S80x2048 .bf16) (x4 x5 : Vec F S256x16 .bf16) (x6 : Vec F S1 .f32)
    (k : Fin k0_t1_loop.trips) : FVec F S1024 .f32 :=
  k0_pay2 x4 x5 x6 (k0_pay3 IO256 (View.ld x1 (tripRect k))) (k0_pay4 IO256 (View.ld x2 (tripRect k)))
    (k0_pay5 (k0_pay1 x3) IO80 IO128 (View.ld x0 (tripRect k))) (constant S1024x16 .f32 0x00000000#32)

theorem hz2 : (![0, 0] : Fin 2 → Nat) = fun _ => 0 := funext fun a => by fin_cases a <;> rfl
theorem hz1 : (![0] : Fin 1 → Nat) = fun _ => 0 := funext fun a => by fin_cases a; rfl

/-- The stores of the whole body are the stores of its eight trips, last first. -/
theorem run_pieces (c : Dev nD) (i : grid0.Coords) (arg1 : Memref sig .tc .vmem S8192 .i32) (harg1 : arg1.IsWhole) (arg2 : Memref sig .tc .vmem S8192 .i32) (harg2 : arg2.IsWhole) (arg3 : Memref sig .tc .vmem S8192 .i32) (harg3 : arg3.IsWhole) (arg4 : Memref sig .tc .vmem S80x2048 .bf16) (harg4 : arg4.IsWhole) (arg5 : Memref sig .tc .vmem S256x16 .bf16) (harg5 : arg5.IsWhole) (arg6 : Memref sig .tc .vmem S256x16 .bf16) (harg6 : arg6.IsWhole) (arg7 : Memref sig .tc .vmem S1 .f32) (harg7 : arg7.IsWhole) (arg8 : Memref sig .tc .vmem S8192 .f32) (harg8 : arg8.IsWhole)
    (x0 : Vec F S8192 .i32) (x1 : Vec F S8192 .i32) (x2 : Vec F S8192 .i32) (x3 : Vec F S80x2048 .bf16) (x4 : Vec F S256x16 .bf16) (x5 : Vec F S256x16 .bf16) (x6 : Vec F S1 .f32) :
    (kernelRun0_A (F := F) c i arg1 harg1 arg2 harg2 arg3 harg3 arg4 harg4 arg5 harg5 arg6 harg6 arg7 harg7 arg8 harg8 x0 x1 x2 x3 x4 x5 x6).1
      = pb_k0_t1 (F := F) Variants.none c none i arg1 harg1 arg2 harg2 arg3 harg3 arg4 harg4 arg5 harg5 arg6 harg6 arg7 harg7 arg8 harg8 x3 x4 x5 x6 IO80 IO128 IO256 (harg1.unread x0) (harg2.unread x1) (harg3.unread x2) k0_t1_loop.trips := by
  unfold kernelRun0_A
  dsimp only
  sl_unfold_words
  simp only [View.readAt_eq_ld, Memref.IsWhole.read_unread, View.ld_unit_zero (S := S80x2048) hz2,
    View.ld_unit_zero (S := S256x16) hz2, View.ld_unit_zero (S := S1) hz1]

/-- Trip k makes one store: its 1024 results at its offset. -/
theorem trip_piece (c : Dev nD) (i : grid0.Coords) (arg1 : Memref sig .tc .vmem S8192 .i32) (harg1 : arg1.IsWhole) (arg2 : Memref sig .tc .vmem S8192 .i32) (harg2 : arg2.IsWhole) (arg3 : Memref sig .tc .vmem S8192 .i32) (harg3 : arg3.IsWhole) (arg4 : Memref sig .tc .vmem S80x2048 .bf16) (harg4 : arg4.IsWhole) (arg5 : Memref sig .tc .vmem S256x16 .bf16) (harg5 : arg5.IsWhole) (arg6 : Memref sig .tc .vmem S256x16 .bf16) (harg6 : arg6.IsWhole) (arg7 : Memref sig .tc .vmem S1 .f32) (harg7 : arg7.IsWhole) (arg8 : Memref sig .tc .vmem S8192 .f32) (harg8 : arg8.IsWhole)
    (x0 : Vec F S8192 .i32) (x1 : Vec F S8192 .i32) (x2 : Vec F S8192 .i32) (x3 : Vec F S80x2048 .bf16) (x4 : Vec F S256x16 .bf16) (x5 : Vec F S256x16 .bf16) (x6 : Vec F S1 .f32) (k : Fin k0_t1_loop.trips) :
    tripL_k0_t1 (F := F) Variants.none c none i arg1 harg1 arg2 harg2 arg3 harg3 arg4 harg4 arg5 harg5 arg6 harg6 arg7 harg7 arg8 harg8 x3 x4 x5 x6 IO80 IO128 IO256 (harg1.unread x0) (harg2.unread x1) (harg3.unread x2) k
      = [⟨tripRect k, tripPay x0 x1 x2 x3 x4 x5 x6 k⟩] := by
  unfold tripL_k0_t1 trip_k0_t1
  dsimp only
  sl_unfold_words
  simp only [View.readAt_eq_ld, Memref.IsWhole.read_unread]
  rfl

/-- The loop makes eight trips. -/
theorem trips_eq : k0_t1_loop.trips = 8 := by decide

/-- THE BLOCK as one function of its index y: trip y / 1024, row y % 1024. -/
def blockFn (x0 x1 x2 : Vec F S8192 .i32) (x3 : Vec F S80x2048 .bf16) (x4 x5 : Vec F S256x16 .bf16) (x6 : Vec F S1 .f32) :
    Vec F S8192 .f32 := fun y =>
  tripPay x0 x1 x2 x3 x4 x5 x6 ⟨(y 0).val / 1024, by have h : (y 0).val < 8192 := (y 0).isLt; rw [trips_eq]; omega⟩
    (ValueIdx.ix1 (⟨(y 0).val % 1024, Nat.mod_lt _ (by decide)⟩ : Fin 1024))

/-- Row q of trip k sits at index 1024 k + q of the block. -/
theorem tripRect_emb (k : Fin k0_t1_loop.trips) (x : (tripRect k).shape.Idx) :
    ((tripRect k).emb x 0).val = 1024 * k.val + (x 0).val := by
  show (k0_off1 k) 0 + 1 * (x 0).val = _
  rw [k0_off1_eq k]
  show 1024 * k.val + 1 * (x 0).val = _
  omega

/-- Trip k's store is the block function on trip k's 1024 indices. -/
theorem tripPay_eq_blockFn (x0 x1 x2 : Vec F S8192 .i32) (x3 : Vec F S80x2048 .bf16) (x4 x5 : Vec F S256x16 .bf16)
    (x6 : Vec F S1 .f32) (k : Fin k0_t1_loop.trips) (x : (tripRect k).shape.Idx) :
    tripPay x0 x1 x2 x3 x4 x5 x6 k x = blockFn x0 x1 x2 x3 x4 x5 x6 ((tripRect k).emb x) := by
  have he := tripRect_emb k x
  have hx : (x 0).val < 1024 := (x 0).isLt
  unfold blockFn
  have hk : (⟨((tripRect k).emb x 0).val / 1024, by
      have h : ((tripRect k).emb x 0).val < 8192 := ((tripRect k).emb x 0).isLt; rw [trips_eq]; omega⟩ : Fin k0_t1_loop.trips) = k :=
    Fin.ext (by show ((tripRect k).emb x 0).val / 1024 = k.val; omega)
  have hq : (ValueIdx.ix1 (⟨((tripRect k).emb x 0).val % 1024, Nat.mod_lt _ (by decide)⟩ : Fin 1024) : S1024.Idx) = x := by
    funext a
    match a with
    | ⟨0, _⟩ => exact Fin.ext (by show ((tripRect k).emb x 0).val % 1024 = (x 0).val; omega)
  rw [hk, hq]

/-- Every store of the first n trips is the block function on its indices. -/
theorem pieces_are_blockFn (c : Dev nD) (i : grid0.Coords) (arg1 : Memref sig .tc .vmem S8192 .i32) (harg1 : arg1.IsWhole) (arg2 : Memref sig .tc .vmem S8192 .i32) (harg2 : arg2.IsWhole) (arg3 : Memref sig .tc .vmem S8192 .i32) (harg3 : arg3.IsWhole) (arg4 : Memref sig .tc .vmem S80x2048 .bf16) (harg4 : arg4.IsWhole) (arg5 : Memref sig .tc .vmem S256x16 .bf16) (harg5 : arg5.IsWhole) (arg6 : Memref sig .tc .vmem S256x16 .bf16) (harg6 : arg6.IsWhole) (arg7 : Memref sig .tc .vmem S1 .f32) (harg7 : arg7.IsWhole) (arg8 : Memref sig .tc .vmem S8192 .f32) (harg8 : arg8.IsWhole)
    (x0 : Vec F S8192 .i32) (x1 : Vec F S8192 .i32) (x2 : Vec F S8192 .i32) (x3 : Vec F S80x2048 .bf16) (x4 : Vec F S256x16 .bf16) (x5 : Vec F S256x16 .bf16) (x6 : Vec F S1 .f32) :
    ∀ n, n ≤ k0_t1_loop.trips → ∀ p ∈ pb_k0_t1 (F := F) Variants.none c none i arg1 harg1 arg2 harg2 arg3 harg3 arg4 harg4 arg5 harg5 arg6 harg6 arg7 harg7 arg8 harg8 x3 x4 x5 x6 IO80 IO128 IO256 (harg1.unread x0) (harg2.unread x1) (harg3.unread x2) n,
      ∀ x : p.1.shape.Idx, p.2 x = blockFn x0 x1 x2 x3 x4 x5 x6 (p.1.emb x)
  | 0, _, p, hp, _ => by rw [pb_k0_t1.eq_1] at hp; exact absurd hp List.not_mem_nil
  | n + 1, hn, p, hp, x => by
    have hlt : n < k0_t1_loop.trips := hn
    have e := pb_k0_t1_succ (F := F) Variants.none c none i arg1 harg1 arg2 harg2 arg3 harg3 arg4 harg4 arg5 harg5 arg6 harg6 arg7 harg7 arg8 harg8 x3 x4 x5 x6 IO80 IO128 IO256 (harg1.unread x0) (harg2.unread x1) (harg3.unread x2) ⟨n, hlt⟩
    rw [show (⟨n, hlt⟩ : Fin k0_t1_loop.trips).val + 1 = n + 1 from rfl, trip_piece] at e
    rw [e] at hp
    rcases List.mem_append.mp hp with h | h
    · obtain rfl := List.mem_singleton.mp h
      exact tripPay_eq_blockFn x0 x1 x2 x3 x4 x5 x6 ⟨n, hlt⟩ x
    · exact pieces_are_blockFn c i arg1 harg1 arg2 harg2 arg3 harg3 arg4 harg4 arg5 harg5 arg6 harg6 arg7 harg7 arg8 harg8 x0 x1 x2 x3 x4 x5 x6 n (Nat.le_of_lt hlt) p h x

/-- WHAT THE BODY LEAVES in the output block: the block function of the point's input blocks. -/
theorem out_eq_blockFn (c : Dev nD) (i : grid0.Coords) (arg1 : Memref sig .tc .vmem S8192 .i32) (harg1 : arg1.IsWhole) (arg2 : Memref sig .tc .vmem S8192 .i32) (harg2 : arg2.IsWhole) (arg3 : Memref sig .tc .vmem S8192 .i32) (harg3 : arg3.IsWhole) (arg4 : Memref sig .tc .vmem S80x2048 .bf16) (harg4 : arg4.IsWhole) (arg5 : Memref sig .tc .vmem S256x16 .bf16) (harg5 : arg5.IsWhole) (arg6 : Memref sig .tc .vmem S256x16 .bf16) (harg6 : arg6.IsWhole) (arg7 : Memref sig .tc .vmem S1 .f32) (harg7 : arg7.IsWhole) (arg8 : Memref sig .tc .vmem S8192 .f32) (harg8 : arg8.IsWhole)
    (x0 : Vec F S8192 .i32) (x1 : Vec F S8192 .i32) (x2 : Vec F S8192 .i32) (x3 : Vec F S80x2048 .bf16) (x4 : Vec F S256x16 .bf16) (x5 : Vec F S256x16 .bf16) (x6 : Vec F S1 .f32) :
    out0_A_7 (F := F) c i arg1 harg1 arg2 harg2 arg3 harg3 arg4 harg4 arg5 harg5 arg6 harg6 arg7 harg7 arg8 harg8 x0 x1 x2 x3 x4 x5 x6 = blockFn x0 x1 x2 x3 x4 x5 x6 := by
  funext y
  unfold out0_A_7
  have hc := cover0_A_7 (F := F) c i arg1 harg1 arg2 harg2 arg3 harg3 arg4 harg4 arg5 harg5 arg6 harg6 arg7 harg7 arg8 harg8 x0 x1 x2 x3 x4 x5 x6 y
  rw [View.read_writes_apply_eq_canon _ _ y _ hc]
  refine View.canon_apply_of_pieces (blockFn x0 x1 x2 x3 x4 x5 x6) _ ?_ y hc
  rw [run_pieces]
  exact pieces_are_blockFn c i arg1 harg1 arg2 harg2 arg3 harg3 arg4 harg4 arg5 harg5 arg6 harg6 arg7 harg7 arg8 harg8 x0 x1 x2 x3 x4 x5 x6 k0_t1_loop.trips (Nat.le_refl _)

end Cert.KernelIdeal.BlockPieces

end
-- ==== Proof.ArrayValue.lean ====
/-
  The kernel's output array after the run, and the result the host line after the region slices out of it.

  The grid has 489 points; point t's block is entries 8192 t .. 8192 t + 8191 of each position vector and of the output.
  So the output array ends as one function of its index n: the block function of point n / 8192 at n % 8192. The 489
  blocks tile the 4005888 entries, and the result is the first 4000000 of them.
-/
import proofs.«414439_j30202210025786_3_alg».proof.Proof.BlockPieces
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen Cert.KernelIdeal.BlockPieces
open Idealize.ShloMosaic Idealize.ShloMosaic.TcCoe Idealize.SL.Sem Idealize.ShloMosaic.ValueIdx
open Idealize.ShloMosaic.Pipeline (Dat Cfg Window)

variable {F : FTy → Type} [FloatOps F]
variable (m : (ℓ : Loc nD τ sig) → Buf (Elt F) ℓ) (ρ : Dev nD → PrngReg)

/-- The grid point whose block holds entry n. -/
def pt (n : S4005888.Idx) : Fin cfg0.N :=
  ⟨(n 0).val / 8192, by have h : (n 0).val < 4005888 := (n 0).isLt; show _ < grid0.N; rw [N_0]; omega⟩

/-- Entry n's place inside its block. -/
def inBlk (n : S4005888.Idx) : S8192.Idx := ix1 (⟨(n 0).val % 8192, Nat.mod_lt _ (by decide)⟩ : Fin 8192)

/-- THE OUTPUT ARRAY as one function of its index. -/
def arrFn (c : Dev nD) : S4005888.Idx → Elt F .f32 := fun n =>
  blockFn (iblk m c 0 (pt n)) (iblk m c 1 (pt n)) (iblk m c 2 (pt n)) (iblk m c 3 (pt n)) (iblk m c 4 (pt n))
    (iblk m c 5 (pt n)) (iblk m c 6 (pt n)) (inBlk n)

/-- Point t's output block is block number t. -/
theorem idx7 : ∀ t : Fin cfg0.N, win0_7.index t (0 : Fin 1) = t.val :=
  (by decide +kernel : ∀ t : Fin grid0.N, win0_7.index t (0 : Fin 1) = t.val)

/-- Entry j of point t's block is entry 8192 t + j of the array. -/
theorem blk7_emb (t : Fin cfg0.N) (j : S8192.Idx) :
    ((((cfg0.win 7).blk t).view.emb j) 0).val = t.val * 8192 + (j 0).val := by
  show win0_7.index t (0 : Fin 1) * 8192 + 1 * (j 0).val = _
  rw [idx7 t]; omega

/-- WHAT POINT t WRITES BACK is block t of the array function. -/
theorem flushed7_eq (c : Dev nD) (t : Fin cfg0.N) :
    (dats m 0 c).flushed 7 t = ((cfg0.win 7).blk t).view.read (Elt F) (arrFn m c) := by
  show (cfg0.win 7).cut (grid0.coords t) ((dats m 0 c).after 7 t) = _
  rw [after0_7]
  unfold outsAt0
  rw [out_eq_blockFn]
  funext j
  show blockFn (iblk m c 0 t) (iblk m c 1 t) (iblk m c 2 t) (iblk m c 3 t) (iblk m c 4 t) (iblk m c 5 t) (iblk m c 6 t) j
    = arrFn m c (((cfg0.win 7).blk t).view.emb j)
  have he := blk7_emb t j
  have hj : (j 0).val < 8192 := (j 0).isLt
  have hp : pt (((cfg0.win 7).blk t).view.emb j) = t := Fin.ext (by
    show ((((cfg0.win 7).blk t).view.emb j) 0).val / 8192 = t.val; omega)
  have hq : inBlk (((cfg0.win 7).blk t).view.emb j) = j := by
    funext a
    match a with
    | ⟨0, _⟩ => exact Fin.ext (by show ((((cfg0.win 7).blk t).view.emb j) 0).val % 8192 = (j 0).val; omega)
  unfold arrFn
  rw [hp, hq]

/-- An entry is in point t's block iff it lies between 8192 t and 8192 t + 8191. -/
theorem mem_blk7 (t : Fin cfg0.N) (i : S4005888.Idx) :
    i ∈ ((cfg0.win 7).blk t).view.set ↔ ∀ a : Fin 1, win0_7.index t a * S8192.size a ≤ (i a).val
      ∧ (i a).val < win0_7.index t a * S8192.size a + S8192.size a := by
  show i ∈ ((View.whole main_v14).slice (win0_7.rect t)).set ↔ _
  rw [View.set_slice_whole, Rect.mem_set_unit]
  exact Iff.rfl

/-- The 489 blocks tile the array. -/
theorem cover7 (i : S4005888.Idx) :
    ∃ t : Fin cfg0.N, (cfg0.win 7).flush t = true ∧ i ∈ ((cfg0.win 7).blk t).view.set := by
  refine ⟨pt i, flush0_7 _, ?_⟩
  rw [mem_blk7]
  intro a
  match a with
  | ⟨0, _⟩ =>
    show win0_7.index (pt i) (0 : Fin 1) * 8192 ≤ (i 0).val ∧ (i 0).val < win0_7.index (pt i) (0 : Fin 1) * 8192 + 8192
    rw [idx7]
    show (i 0).val / 8192 * 8192 ≤ (i 0).val ∧ (i 0).val < (i 0).val / 8192 * 8192 + 8192
    omega

/-- THE ARRAY after the run. -/
theorem final7 (c : Dev nD) : (dats m 0 c).arrAt 7 cfg0.N = arrFn m c :=
  (dats m 0 c).arrAt_eq_of_cover 7 (arrFn m c) (fun t _ => flushed7_eq m c t) cover7

/-- THE RESULT: the host line after the region keeps the first 4000000 entries. -/
theorem tail_eq (c : Dev nD) :
    Pipeline.afterTail₀ cfgs (dats m) 0 (V0 m) [hostOps1] c main_v15
      = extractStridedSlice S4000000 ![0] (arrFn m c) Facts₀.slices_S4005888_S4000000_0 := by
  unfold Pipeline.afterTail₀
  show StableHlo.after hostOps1 _ (Proc.devRef .tc main_v15) = _
  after_results
  have e : Pipeline.withArrays (cfgs 0).spec c (V0 m c) (fun w => (dats m 0 c).arrAt w (cfgs 0).N)
      (Proc.devRef .tc main_v14) = arrFn m c :=
    (Pipeline.withArrays_arr spec0 winFacts0.arr_inj c _ _ 7).trans (final7 m c)
  rw [e]

end Cert.KernelIdeal.ArrayValue

end
-- ==== Proof.LibRowTake.lean ====
/-
  Taking rows of a table by a column of integer positions.

  `table[idx]` over a table of `N` rows and `C` columns, with `E` positions kept as an `E × 1` column:
  entry `(e, q)` of the result is entry `(row e, q)` of the table, where `row e` is position `e` read as a
  signed integer and clamped into `[0, N - 1]`: a negative position reads row 0, one past the end the last
  row. And the position arithmetic in front of such a take that maps a negative position `i` to `i + N`
  leaves a position that is not negative as it is.
-/
import Idealize.ShloMosaic.PureOps
import Idealize.ShloMosaic.Lib.ValueIdx
import Idealize.ShloMosaic.Lib.DynamicIndex

noncomputable section

open Idealize.ShloMosaic Idealize.ShloMosaic.ValueIdx

namespace Cert.RowTake

/-- The dimension numbers of a take of whole rows: the table's row axis is indexed and dropped, its column
    axis is carried over; the positions are an `E × 1` column. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a position selects: read signed, clamped into the table. -/
def rowOf {w : Nat} (N : Nat) (hN : 0 < N) (p : BitVec w) : Fin N := ⟨min p.toInt.toNat (N - 1), by omega⟩

/-- THE TAKE AT `(e, q)`: the table at `(rowOf (position e), q)`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N C E wf) x idx (ix2 e q) = x (ix2 (rowOf N hN (idx (ix2 e (0 : Fin 1)))) q) := by
  unfold Host.gather
  refine congrArg x ?_
  funext a
  refine Fin.ext ?_
  match a with
  | ⟨0, _⟩ =>
    show (rowDims N C E wf).start (ix2 e q) idx 0 + (rowDims N C E wf).batchCoord (ix2 e q) 0
      + (rowDims N C E wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e q) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e q) idx 1 + (rowDims N C E wf).batchCoord (ix2 e q) 1
      + (rowDims N C E wf).offCoord (ix2 e q) 1 = q.val
    rw [GatherDims.batchCoord_eq_zero _ _ _ List.not_mem_nil]
    unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩),
      Nat.zero_add]
    rfl

/-- A position that is not negative passes the wrap-around `i < 0 ? i + n : i` unchanged. -/
theorem wrap_of_nonneg {s : Shape} (i n z : IVec s 32) (hz : ∀ j, z j = 0#32) (j : s.Idx)
    (h : 0 ≤ (i j).toInt) : select (cmpi .slt i z) (addi i n) i j = i j := by
  obtain rfl : z = constantI s 32 0#32 := funext hz
  exact select_slt_zero_of_nonneg i (addi i n) i j h

end Cert.RowTake

end
-- ==== Proof.Score.lean ====
/-
  The score of one (i, j, k) entry, as one function of the argument arrays.

  Three tables A [10000 x 16], B [144 x 16], C [144 x 16], a weight row W [1 x 16] and a bias b [1]; three
  position vectors i, j, k of length 4000000. Entry n of the result is

      logistic ( sum over r < 16 of  A[i n, r] * B[j n, r] * C[k n, r] * W[0, r]   +   b[0] )

  on the extended reals, where a position selects its row read signed and clamped into the table.
  The product of four factors is written here associated to the left; the same sum with the last two
  factors taken together first, (A * B) * (C * W), is the same number: multiplication of extended reals
  is associative.
-/
import Idealize.ShloMosaic.PureOps
import Idealize.ShloMosaic.PureOps.Ideal.Laws
import Idealize.ShloMosaic.Lib.ValueIdx
import proofs.«414439_j30202210025786_3_alg».proof.Proof.LibRowTake

noncomputable section

open Idealize.ShloMosaic Idealize.ShloMosaic.ValueIdx

namespace Cert.Score

/-- Column r * 128 + l of a row of 2048: where rank r of the table row whose low seven position bits are l
    sits once 128 consecutive table rows are laid side by side, rank-major. -/
abbrev col (r : Fin 16) (l : Fin 128) : Fin 2048 := ⟨r.val * 128 + l.val, by omega⟩

/-- The score from three selected rows a, b, c, the weights w and the bias. -/
def logitOf (a b c w : Fin 16 → EReal) (bias : EReal) : EReal :=
  Ideal.logistic ((∑ r : Fin 16, a r * b r * c r * w r) + bias)

/-- With the weight folded into the third row first, the score is the same. -/
theorem logitOf_fold (a b c w : Fin 16 → EReal) (bias : EReal) :
    Ideal.logistic ((∑ r : Fin 16, a r * b r * (c r * w r)) + bias) = logitOf a b c w bias := by
  unfold logitOf
  refine congrArg (fun s => Ideal.logistic (s + bias)) (Finset.sum_congr rfl fun r _ => ?_)
  exact (mul_assoc _ _ _).symm

/-- The score of the entry that selects row ra of A, rb of B and rc of C. -/
def scoreAt (A : FVec Ideal ⟨2, ![10000, 16]⟩ .f32) (B C : FVec Ideal ⟨2, ![144, 16]⟩ .f32)
    (W : FVec Ideal ⟨2, ![1, 16]⟩ .f32) (b : FVec Ideal ⟨1, ![1]⟩ .f32) (ra : Fin 10000) (rb rc : Fin 144) : EReal :=
  logitOf (fun r => A (ix2 ra r)) (fun r => B (ix2 rb r)) (fun r => C (ix2 rc r)) (fun r => W (ix2 (0 : Fin 1) r))
    (b (ix1 (0 : Fin 1)))

/-- THE RESULT as one function of the arguments: entry n is the score of rows i n, j n, k n. -/
def G (A : FVec Ideal ⟨2, ![10000, 16]⟩ .f32) (B C : FVec Ideal ⟨2, ![144, 16]⟩ .f32)
    (W : FVec Ideal ⟨2, ![1, 16]⟩ .f32) (b : FVec Ideal ⟨1, ![1]⟩ .f32) (i j k : IVec ⟨1, ![4000000]⟩ 32) :
    FVec Ideal ⟨1, ![4000000]⟩ .f32 := fun n =>
  scoreAt A B C W b (Cert.RowTake.rowOf 10000 (by decide) (i n)) (Cert.RowTake.rowOf 144 (by decide) (j n))
    (Cert.RowTake.rowOf 144 (by decide) (k n))

/-- A position inside the table selects the row of its own number. -/
theorem rowOf_of_range {N : Nat} (hN : 0 < N) (p : BitVec 32) (h0 : 0 ≤ p.toInt) (h1 : p.toInt < N) :
    (Cert.RowTake.rowOf N hN p).val = p.toNat := by
  unfold Cert.RowTake.rowOf
  have h32 := p.isLt
  have : p.toInt = p.toNat := by
    unfold BitVec.toInt at h0 ⊢
    split <;> omega
  simp only
  omega

end Cert.Score

end
-- ==== Proof.HostArrays.lean ====
/-
  The arrays the kernel's region finds, read at an index: what the host lines before the region make of the arguments.
-/
import proofs.«414439_j30202210025786_3_alg».proof.Proof.Gen.KernelIdeal.Frame.Runs
import proofs.«414439_j30202210025786_3_alg».proof.Proof.Score
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

set_option maxRecDepth 16384

noncomputable section

namespace Cert.KernelIdeal.HostArrays

open Cert.KernelIdeal Cert.KernelIdeal.Gen Idealize.ShloMosaic Idealize.ShloMosaic.ValueIdx Idealize.SL.Sem
open Idealize.ShloMosaic.TcCoe

variable (m : (ℓ : Loc nD τ sig) → Buf (Elt Ideal) ℓ)

/-- The arguments, each at its literal type. -/
abbrev argA (c : Dev nD) : FVec Ideal S10000x16 .f32 := m ((c : Thread nD τ).loc main_arg0)
abbrev argB (c : Dev nD) : FVec Ideal S144x16 .f32 := m ((c : Thread nD τ).loc main_arg1)
abbrev argC (c : Dev nD) : FVec Ideal S144x16 .f32 := m ((c : Thread nD τ).loc main_arg2)
abbrev argW (c : Dev nD) : FVec Ideal S1x16 .f32 := m ((c : Thread nD τ).loc main_arg3)
abbrev argb (c : Dev nD) : FVec Ideal S1 .f32 := m ((c : Thread nD τ).loc main_arg4)
abbrev argi (c : Dev nD) : IVec S4000000 32 := m ((c : Thread nD τ).loc main_arg5)
abbrev argj (c : Dev nD) : IVec S4000000 32 := m ((c : Thread nD τ).loc main_arg6)
abbrev argk (c : Dev nD) : IVec S4000000 32 := m ((c : Thread nD τ).loc main_arg7)

/-- A vector padded at its end, read before the padding, is the vector. -/
theorem pad1_apply {α : Type} {N M hi : Nat} (x : (⟨1, ![N]⟩ : Shape).Idx → α) {u : Shape} (v : u.Idx → α)
    (h : (⟨1, ![N]⟩ : Shape).Pads ![0] ![hi] ![0] ⟨1, ![M]⟩) (hu : 0 < u.numel) (n : Fin N) (hn : n.val < M) :
    pad ⟨1, ![M]⟩ ![0] ![hi] ![0] x v h hu (ix1 (⟨n.val, hn⟩ : Fin M)) = x (ix1 n) :=
  pad_apply_of_inside _ _ _ x v h hu _ (ix1 n) fun a => by
    match a with
    | ⟨0, _⟩ => show n.val = 0 + n.val * (0 + 1); omega

/-- A table padded with rows at its end, read at a row before the padding, is the table. -/
theorem pad2_apply {α : Type} {N M C hi : Nat} (x : (⟨2, ![N, C]⟩ : Shape).Idx → α) {u : Shape} (v : u.Idx → α)
    (h : (⟨2, ![N, C]⟩ : Shape).Pads ![0, 0] ![hi, 0] ![0, 0] ⟨2, ![M, C]⟩) (hu : 0 < u.numel) (d : Fin N) (hd : d.val < M)
    (r : Fin C) :
    pad ⟨2, ![M, C]⟩ ![0, 0] ![hi, 0] ![0, 0] x v h hu (ix2 (⟨d.val, hd⟩ : Fin M) r) = x (ix2 d r) :=
  pad_apply_of_inside _ _ _ x v h hu _ (ix2 d r) fun a => by
    match a with
    | ⟨0, _⟩ => show d.val = 0 + d.val * (0 + 1); omega
    | ⟨1, _⟩ => show r.val = 0 + r.val * (0 + 1); omega

/-- The three position vectors, padded at the end: an entry before the padding is the argument's. -/
theorem V_v0 (c : Dev nD) (n : Fin 4000000) :
    (V m c main_v0 : IVec S4005888 32) (ix1 (⟨n.val, by omega⟩ : Fin 4005888)) = argi m c (ix1 n) := by
  have e : (V m c main_v0 : IVec S4005888 32)
      = pad S4005888 ![0] ![5888] ![0] (argi m c) (constantI S_ 32 0#32) pads_S4000000_S4005888_058880 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results
    rfl
  rw [e]
  exact pad1_apply _ _ _ _ n _
theorem V_v1 (c : Dev nD) (n : Fin 4000000) :
    (V m c main_v1 : IVec S4005888 32) (ix1 (⟨n.val, by omega⟩ : Fin 4005888)) = argj m c (ix1 n) := by
  have e : (V m c main_v1 : IVec S4005888 32)
      = pad S4005888 ![0] ![5888] ![0] (argj m c) (constantI S_ 32 0#32) pads_S4000000_S4005888_058880 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results
    rfl
  rw [e]
  exact pad1_apply _ _ _ _ n _
theorem V_v2 (c : Dev nD) (n : Fin 4000000) :
    (V m c main_v2 : IVec S4005888 32) (ix1 (⟨n.val, by omega⟩ : Fin 4005888)) = argk m c (ix1 n) := by
  have e : (V m c main_v2 : IVec S4005888 32)
      = pad S4005888 ![0] ![5888] ![0] (argk m c) (constantI S_ 32 0#32) pads_S4000000_S4005888_058880 h_S_ := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results
    rfl
  rw [e]
  exact pad1_apply _ _ _ _ n _

/-- Rows laid side by side rank-major, read at (hh, r * 128 + l): through the two regroupings and the exchange of the
    last two axes this is entry (hh * 128 + l, r) of the table of 10240 rows. -/
theorem regroup_apply {α : Type} (x : S10240x16.Idx → α) (hh : Fin 80) (r : Fin 16) (l : Fin 128) :
    shapeCast S80x2048 (transpose S80x16x128 [0, 2, 1] (shapeCast S80x128x16 x shapeCasts_S10240x16_S80x128x16)
        transposes_S80x128x16_S80x16x128_0_2_1) shapeCasts_S80x16x128_S80x2048 (ix2 hh (Cert.Score.col r l))
      = x (ix2 (⟨hh.val * 128 + l.val, by omega⟩ : Fin 10240) r) := by
  rw [shapeCast_apply _ _ _ (ix3 hh r l) (by
    rw [Shape.rowMajor_val_three, Shape.rowMajor_val_two]
    show (hh.val * 16 + r.val) * 128 + l.val = hh.val * 2048 + (r.val * 128 + l.val)
    omega)]
  rw [transpose_apply _ _ _ _ (ix3 hh l r) (fun b => by
    match b with
    | ⟨0, _⟩ => rfl
    | ⟨1, _⟩ => rfl
    | ⟨2, _⟩ => rfl)]
  rw [shapeCast_apply _ _ _ (ix2 (⟨hh.val * 128 + l.val, by omega⟩ : Fin 10240) r) (by
    rw [Shape.rowMajor_val_two, Shape.rowMajor_val_three]
    show (hh.val * 128 + l.val) * 16 + r.val = (hh.val * 128 + l.val) * 16 + r.val
    rfl)]

/-- Table A, 128 rows side by side rank-major: row hh * 128 + l of A at rank r sits at (hh, r * 128 + l). -/
theorem V_v7 (c : Dev nD) (hh : Fin 80) (r : Fin 16) (l : Fin 128) (hlt : hh.val * 128 + l.val < 10000) :
    (V m c main_v7 : FVec Ideal S80x2048 .bf16) (ix2 hh (Cert.Score.col r l))
      = argA m c (ix2 (⟨hh.val * 128 + l.val, hlt⟩ : Fin 10000) r) := by
  have e : (V m c main_v7 : FVec Ideal S80x2048 .bf16)
      = truncf .bf16 (shapeCast S80x2048 (transpose S80x16x128 [0, 2, 1] (shapeCast S80x128x16
          (pad S10240x16 ![0, 0] ![240, 0] ![0, 0] (argA m c) (sitofp (F := Ideal) .f32 (constantI S_ 32 0#32))
            pads_S10000x16_S10240x16_02400_000 h_S_)
          shapeCasts_S10240x16_S80x128x16) transposes_S80x128x16_S80x16x128_0_2_1) shapeCasts_S80x16x128_S80x2048)
          bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results
    rfl
  rw [e, truncf_apply, regroup_apply]
  exact pad2_apply _ _ _ _ (⟨hh.val * 128 + l.val, hlt⟩ : Fin 10000) _ r

/-- Table B padded to 256 rows: a row before the padding is B's. -/
theorem V_v9 (c : Dev nD) (d : Fin 144) (r : Fin 16) :
    (V m c main_v9 : FVec Ideal S256x16 .bf16) (ix2 (⟨d.val, by omega⟩ : Fin 256) r)
      = argB m c (ix2 d r) := by
  have e : (V m c main_v9 : FVec Ideal S256x16 .bf16)
      = truncf .bf16 (pad S256x16 ![0, 0] ![112, 0] ![0, 0] (argB m c) (sitofp (F := Ideal) .f32 (constantI S_ 32 0#32))
          pads_S144x16_S256x16_01120_000 h_S_) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results
    rfl
  rw [e, truncf_apply]
  exact pad2_apply _ _ _ _ d _ r

/-- Table C with the weight row folded in, padded to 256 rows: a row before the padding is C's times W. -/
theorem V_v13 (c : Dev nD) (d : Fin 144) (r : Fin 16) :
    (V m c main_v13 : FVec Ideal S256x16 .bf16) (ix2 (⟨d.val, by omega⟩ : Fin 256) r)
      = argC m c (ix2 d r) * argW m c (ix2 (0 : Fin 1) r) := by
  have e : (V m c main_v13 : FVec Ideal S256x16 .bf16)
      = truncf .bf16 (pad S256x16 ![0, 0] ![112, 0] ![0, 0]
          (mulf (argC m c) (broadcastInDim S144x16 ![0, 1] bcast_S1x16_S144x16_0_1 (argW m c)))
          (sitofp (F := Ideal) .f32 (constantI S_ 32 0#32)) pads_S144x16_S256x16_01120_000 h_S_) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, List.flatten_cons, List.flatten_nil, List.append_nil, List.cons_append, List.nil_append]
    after_results
    rfl
  rw [e, truncf_apply, pad2_apply _ _ _ _ d _ r, mulf_apply]
  refine congrArg (argC m c (ix2 d r) * ·) ?_
  exact broadcastInDim_apply _ _ _ _ (ix2 (0 : Fin 1) r) fun a => by
    match a with
    | ⟨0, _⟩ => rfl
    | ⟨1, _⟩ => rfl

end Cert.KernelIdeal.HostArrays

end
-- ==== Proof.RowValue.lean ====
/-
  One row of one trip of the kernel body, read at the extended reals.

  A row's three positions select three table rows by one-hot products: the indicator row of a position, times a
  table, is the table's row at that position, since on the extended reals 1 * x = x and 0 * x = 0 for every x.
  The first table is laid out with 128 consecutive rows side by side, so its position i is split into
  i / 128 (which block of rows) and i % 128 (which row inside the block); the block is selected by a one-hot
  product, the row inside it by a one-hot product summed over the 128 places of each rank.
-/
import proofs.«414439_j30202210025786_3_alg».proof.Proof.Gen.KernelIdeal.Skeleton
import proofs.«414439_j30202210025786_3_alg».proof.Proof.Score
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.RowValue

open Cert.KernelIdeal Cert.KernelIdeal.Gen Idealize.ShloMosaic Idealize.ShloMosaic.ValueIdx
open Cert.KernelIdeal.Facts₀ Cert.KernelIdeal.Facts

/-! ## Words: the split of a position, and when two small words agree -/

/-- The position h * 128 + l shifted right by seven places is h. -/
theorem shr7 (h l : Nat) (hh : h < 80) (hl : l < 128) :
    IntOp.shrsi .vector (BitVec.ofNat 32 (h * 128 + l)) 7#32 = BitVec.ofNat 32 h := by
  unfold IntOp.shrsi
  rw [if_pos (by decide)]
  have hm : (BitVec.ofNat 32 (h * 128 + l)).msb = false := by
    rw [BitVec.msb_eq_false_iff_two_mul_lt, BitVec.toNat_ofNat]
    omega
  apply BitVec.eq_of_toNat_eq
  show ((BitVec.ofNat 32 (h * 128 + l)).sshiftRight (7#32).toNat).toNat = _
  rw [BitVec.toNat_sshiftRight_of_msb_false hm, BitVec.toNat_ofNat, BitVec.toNat_ofNat, Nat.shiftRight_eq_div_pow]
  show (h * 128 + l) % 2 ^ 32 / 2 ^ 7 = h % 2 ^ 32
  omega

/-- The position h * 128 + l masked to its low seven bits is l. -/
theorem and127 (h l : Nat) (hh : h < 80) (hl : l < 128) :
    IntOp.andi (BitVec.ofNat 32 (h * 128 + l)) 127#32 = BitVec.ofNat 32 l := by
  unfold IntOp.andi
  apply BitVec.eq_of_toNat_eq
  rw [BitVec.toNat_and, BitVec.toNat_ofNat, BitVec.toNat_ofNat]
  show (h * 128 + l) % 2 ^ 32 &&& (2 ^ 7 - 1) = l % 2 ^ 32
  rw [Nat.and_two_pow_sub_one_eq_mod]
  omega

/-- Two numbers below 2^32 are the same word exactly when they are the same number. -/
theorem ofNat_inj_small (a b : Nat) (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat] at this
    omega
  · intro h; rw [h]

/-- The one-hot entry: 1 where the two words agree, 0 elsewhere. -/
theorem hot (a b : BitVec 32) :
    (FloatOps.sitofp .f32 ((IntOp.cmpi .eq a b).setWidth 32) : Ideal .f32) = if a = b then 1 else 0 := by
  by_cases h : a = b
  · subst h
    rw [if_pos rfl]
    have hc : IntOp.cmpi .eq a a = 1#1 := by
      show BitVec.ofBool (a == a) = 1#1
      rw [beq_self_eq_true]; rfl
    rw [hc]
    have e : ((1#1 : BitVec 1).setWidth 32).toInt = 1 := by decide
    show ((((1#1 : BitVec 1).setWidth 32).toInt : ℝ) : EReal) = 1
    rw [e, Int.cast_one, EReal.coe_one]
  · rw [if_neg h]
    have hb : (a == b) = false := beq_eq_false_iff_ne.mpr h
    have hc : IntOp.cmpi .eq a b = 0#1 := by
      show BitVec.ofBool (a == b) = 0#1
      rw [hb]; rfl
    rw [hc]
    have e : ((0#1 : BitVec 1).setWidth 32).toInt = 0 := by decide
    show ((((0#1 : BitVec 1).setWidth 32).toInt : ℝ) : EReal) = 0
    rw [e, Int.cast_zero, EReal.coe_zero]

/-- A one-hot row against a column picks the column's entry there: 1 * x = x and 0 * x = 0 for every extended real x. -/
theorem sum_hot {n : Nat} (d0 : Fin n) (c : Fin n → EReal) (f : Fin n → EReal)
    (hc : ∀ d, c d = if d = d0 then 1 else 0) : ∑ d : Fin n, c d * f d = f d0 := by
  rw [Finset.sum_eq_single d0]
  · rw [hc d0, if_pos rfl, one_mul]
  · intro d _ hd
    rw [hc d, if_neg hd, zero_mul]
  · intro h; exact absurd (Finset.mem_univ d0) h

/-! ## Layout: a column of positions spread along rows, and the one-hot matrix of a column of positions -/

/-- A vector of 1024 positions turned into a column and spread over n columns: entry (p, d) is position p. -/
theorem spread_apply {n : Nat} (v : IVec S1024 32) (h1 : S1024.ShapeCasts S1024x1)
    (h2 : S1024x1.Broadcasts ⟨2, ![1024, n]⟩) (p : Fin 1024) (d : Fin n) :
    broadcastTo ⟨2, ![1024, n]⟩ (shapeCast S1024x1 v h1) h2 (ix2 p d) = v (ix1 p) := by
  refine (broadcastTo_apply _ h2 (ix2 p d) (ix2 p (0 : Fin 1)) ?_).trans ?_
  · intro a
    match a with
    | ⟨0, _⟩ => rfl
    | ⟨1, _⟩ => rfl
  · refine shapeCast_apply v h1 (ix2 p (0 : Fin 1)) (ix1 p) ?_
    rw [Shape.rowMajor_val_one, Shape.rowMajor_val_two]
    show p.val = p.val * 1 + 0
    omega

/-- The one-hot matrix of a column of positions against the column numbers: entry (p, d) is 1 where position p
    is the word of d, and 0 elsewhere. -/
theorem onehot_apply {n : Nat} (v : IVec S1024 32) (h1 : S1024.ShapeCasts S1024x1)
    (h2 : S1024x1.Broadcasts ⟨2, ![1024, n]⟩) (hio : (⟨2, ![1024, n]⟩ : Shape).Iotas .tc 32 [1]) (h32 : 1 < 32)
    (hb : FTy.bits .bf16 < FTy.bits .f32) (p : Fin 1024) (d : Fin n) :
    (truncf .bf16 (sitofp (F := Ideal) .f32 (extui 32 (cmpi .eq
        (broadcastTo ⟨2, ![1024, n]⟩ (shapeCast S1024x1 v h1) h2)
        (iota .tc ⟨2, ![1024, n]⟩ 32 [1] hio)) h32)) hb : FVec Ideal ⟨2, ![1024, n]⟩ .bf16) (ix2 p d)
      = if v (ix1 p) = BitVec.ofNat 32 d.val then 1 else 0 := by
  show (FloatOps.sitofp .f32 ((IntOp.cmpi .eq
      (broadcastTo ⟨2, ![1024, n]⟩ (shapeCast S1024x1 v h1) h2 (ix2 p d))
      (iota .tc ⟨2, ![1024, n]⟩ 32 [1] hio (ix2 p d))).setWidth 32) : Ideal .f32) = _
  rw [spread_apply v h1 h2 p d, iota_single_apply .tc ⟨2, ![1024, n]⟩ 32 1 hio (ix2 p d)]
  exact hot _ _

/-- When position p is the word of d0, the one-hot entry at d is 1 exactly at d = d0. -/
theorem hot_at {n : Nat} (hn : n ≤ 2 ^ 32) (w : BitVec 32) (d0 d : Fin n) (hw : w = BitVec.ofNat 32 d0.val) :
    (if w = BitVec.ofNat 32 d.val then (1 : EReal) else 0) = if d = d0 then 1 else 0 := by
  subst hw
  refine if_congr ?_ rfl rfl
  rw [ofNat_inj_small _ _ (by have := d0.isLt; omega) (by have := d.isLt; omega)]
  constructor
  · intro e; exact Fin.ext e.symm
  · intro e; rw [e]

/-! ## The two products read at an entry -/

theorem lhs_hi_0 (i : S1024x2048.Idx) (q : dot_S1024x80_S80x2048_S1024x2048_1_0_0_1_n_n.contr.Idx) :
    (dot_S1024x80_S80x2048_S1024x2048_1_0_0_1_n_n.lhsIdx i q 0).val = (i 0).val := by
  unfold DotDims.lhsIdx
  rw [dif_neg (show ¬(0 : Fin S1024x80.rank) ∈ dot_S1024x80_S80x2048_S1024x2048_1_0_0_1_n_n.lhsBatch by decide), dif_pos (show (0 : Fin S1024x80.rank) ∈ dot_S1024x80_S80x2048_S1024x2048_1_0_0_1_n_n.lhsNonContracting by decide)]
  rfl
theorem lhs_hi_1 (i : S1024x2048.Idx) (q : dot_S1024x80_S80x2048_S1024x2048_1_0_0_1_n_n.contr.Idx) :
    (dot_S1024x80_S80x2048_S1024x2048_1_0_0_1_n_n.lhsIdx i q 1).val = (q ⟨0, by decide⟩).val :=
  dot_S1024x80_S80x2048_S1024x2048_1_0_0_1_n_n.lhsIdx_val_of_single rfl i q
theorem rhs_hi_0 (i : S1024x2048.Idx) (q : dot_S1024x80_S80x2048_S1024x2048_1_0_0_1_n_n.contr.Idx) :
    (dot_S1024x80_S80x2048_S1024x2048_1_0_0_1_n_n.rhsIdx i q 0).val = (q ⟨0, by decide⟩).val :=
  dot_S1024x80_S80x2048_S1024x2048_1_0_0_1_n_n.rhsIdx_val_of_single rfl i q
theorem rhs_hi_1 (i : S1024x2048.Idx) (q : dot_S1024x80_S80x2048_S1024x2048_1_0_0_1_n_n.contr.Idx) :
    (dot_S1024x80_S80x2048_S1024x2048_1_0_0_1_n_n.rhsIdx i q 1).val = (i 1).val := by
  unfold DotDims.rhsIdx
  rw [dif_neg (show ¬(1 : Fin S80x2048.rank) ∈ dot_S1024x80_S80x2048_S1024x2048_1_0_0_1_n_n.rhsBatch by decide), dif_pos (show (1 : Fin S80x2048.rank) ∈ dot_S1024x80_S80x2048_S1024x2048_1_0_0_1_n_n.rhsNonContracting by decide)]
  rfl

/-- The [1024 x 80] by [80 x 2048] product into zero, at (p, c): the sum over the 80 places of row p times column c. -/
theorem mm_hi_apply (L : FVec Ideal S1024x80 .bf16) (R : FVec Ideal S80x2048 .bf16) (p : Fin 1024) (c : Fin 2048) :
    matmul dot_S1024x80_S80x2048_S1024x2048_1_0_0_1_n_n none L R (constant (F := Ideal) S1024x2048 .f32 0x00000000#32) (ix2 p c)
      = ∑ k : Fin 80, L (ix2 p k) * R (ix2 k c) := by
  simp only [matmul]
  rw [Ideal.matmul_constant_zero_apply, ← Equiv.sum_comp (ValueIdx.contrEquiv1 dot_S1024x80_S80x2048_S1024x2048_1_0_0_1_n_n 80 rfl rfl).symm]
  refine Finset.sum_congr rfl fun k _ => ?_
  have hk := ValueIdx.contrEquiv1_symm_val dot_S1024x80_S80x2048_S1024x2048_1_0_0_1_n_n 80 rfl rfl k
  have el : dot_S1024x80_S80x2048_S1024x2048_1_0_0_1_n_n.lhsIdx (ix2 p c) ((ValueIdx.contrEquiv1 dot_S1024x80_S80x2048_S1024x2048_1_0_0_1_n_n 80 rfl rfl).symm k) = ix2 p k := funext fun a => Fin.ext (by
    match a with
    | ⟨0, _⟩ => exact lhs_hi_0 _ _
    | ⟨1, _⟩ => exact (lhs_hi_1 _ _).trans hk)
  have er : dot_S1024x80_S80x2048_S1024x2048_1_0_0_1_n_n.rhsIdx (ix2 p c) ((ValueIdx.contrEquiv1 dot_S1024x80_S80x2048_S1024x2048_1_0_0_1_n_n 80 rfl rfl).symm k) = ix2 k c := funext fun a => Fin.ext (by
    match a with
    | ⟨0, _⟩ => exact (rhs_hi_0 _ _).trans hk
    | ⟨1, _⟩ => exact rhs_hi_1 _ _)
  rw [el, er]

theorem lhs_row_0 (i : S1024x16.Idx) (q : dot_S1024x256_S256x16_S1024x16_1_0_0_1_n_n.contr.Idx) :
    (dot_S1024x256_S256x16_S1024x16_1_0_0_1_n_n.lhsIdx i q 0).val = (i 0).val := by
  unfold DotDims.lhsIdx
  rw [dif_neg (show ¬(0 : Fin S1024x256.rank) ∈ dot_S1024x256_S256x16_S1024x16_1_0_0_1_n_n.lhsBatch by decide), dif_pos (show (0 : Fin S1024x256.rank) ∈ dot_S1024x256_S256x16_S1024x16_1_0_0_1_n_n.lhsNonContracting by decide)]
  rfl
theorem lhs_row_1 (i : S1024x16.Idx) (q : dot_S1024x256_S256x16_S1024x16_1_0_0_1_n_n.contr.Idx) :
    (dot_S1024x256_S256x16_S1024x16_1_0_0_1_n_n.lhsIdx i q 1).val = (q ⟨0, by decide⟩).val :=
  dot_S1024x256_S256x16_S1024x16_1_0_0_1_n_n.lhsIdx_val_of_single rfl i q
theorem rhs_row_0 (i : S1024x16.Idx) (q : dot_S1024x256_S256x16_S1024x16_1_0_0_1_n_n.contr.Idx) :
    (dot_S1024x256_S256x16_S1024x16_1_0_0_1_n_n.rhsIdx i q 0).val = (q ⟨0, by decide⟩).val :=
  dot_S1024x256_S256x16_S1024x16_1_0_0_1_n_n.rhsIdx_val_of_single rfl i q
theorem rhs_row_1 (i : S1024x16.Idx) (q : dot_S1024x256_S256x16_S1024x16_1_0_0_1_n_n.contr.Idx) :
    (dot_S1024x256_S256x16_S1024x16_1_0_0_1_n_n.rhsIdx i q 1).val = (i 1).val := by
  unfold DotDims.rhsIdx
  rw [dif_neg (show ¬(1 : Fin S256x16.rank) ∈ dot_S1024x256_S256x16_S1024x16_1_0_0_1_n_n.rhsBatch by decide), dif_pos (show (1 : Fin S256x16.rank) ∈ dot_S1024x256_S256x16_S1024x16_1_0_0_1_n_n.rhsNonContracting by decide)]
  rfl

/-- The [1024 x 256] by [256 x 16] product into zero, at (p, r): the sum over the 256 places of row p times column r. -/
theorem mm_row_apply (L : FVec Ideal S1024x256 .bf16) (R : FVec Ideal S256x16 .bf16) (p : Fin 1024) (r : Fin 16) :
    matmul dot_S1024x256_S256x16_S1024x16_1_0_0_1_n_n none L R (constant (F := Ideal) S1024x16 .f32 0x00000000#32) (ix2 p r)
      = ∑ k : Fin 256, L (ix2 p k) * R (ix2 k r) := by
  simp only [matmul]
  rw [Ideal.matmul_constant_zero_apply, ← Equiv.sum_comp (ValueIdx.contrEquiv1 dot_S1024x256_S256x16_S1024x16_1_0_0_1_n_n 256 rfl rfl).symm]
  refine Finset.sum_congr rfl fun k _ => ?_
  have hk := ValueIdx.contrEquiv1_symm_val dot_S1024x256_S256x16_S1024x16_1_0_0_1_n_n 256 rfl rfl k
  have el : dot_S1024x256_S256x16_S1024x16_1_0_0_1_n_n.lhsIdx (ix2 p r) ((ValueIdx.contrEquiv1 dot_S1024x256_S256x16_S1024x16_1_0_0_1_n_n 256 rfl rfl).symm k) = ix2 p k := funext fun a => Fin.ext (by
    match a with
    | ⟨0, _⟩ => exact lhs_row_0 _ _
    | ⟨1, _⟩ => exact (lhs_row_1 _ _).trans hk)
  have er : dot_S1024x256_S256x16_S1024x16_1_0_0_1_n_n.rhsIdx (ix2 p r) ((ValueIdx.contrEquiv1 dot_S1024x256_S256x16_S1024x16_1_0_0_1_n_n 256 rfl rfl).symm k) = ix2 k r := funext fun a => Fin.ext (by
    match a with
    | ⟨0, _⟩ => exact (rhs_row_0 _ _).trans hk
    | ⟨1, _⟩ => exact rhs_row_1 _ _)
  rw [el, er]

/-! ## The two sums along an axis, and the rank-3 layout between them -/

/-- The sum along the last axis of a [1024 x 16 x 128] vector, at (p, r): the sum over its 128 places. -/
theorem red_lane_apply (src : FVec Ideal S1024x16x128 .f32) (hr : S1024x16x128.Reduces [2] S1024x16)
    (hφ : FKind.Formats .f32) (hacc : (0x00000000#32 : BitVec 32) = 0x00000000#32) (p : Fin 1024) (r : Fin 16) :
    multiReduction (F := Ideal) .add [2] S1024x16 src 0x00000000#32 hr hφ hacc (ix2 p r) = ∑ q : Fin 128, src (ix3 p r q) := by
  refine (Ideal.multiReduction_add_single src 0x00000000#32 hr hφ hacc (ix2 p r)).trans ?_
  refine Finset.sum_congr rfl fun q _ => congrArg src ?_
  funext a
  refine Fin.ext ?_
  match a with
  | ⟨0, _⟩ => rfl
  | ⟨1, _⟩ => rfl
  | ⟨2, _⟩ => rfl

/-- The sum along the last axis of a [1024 x 16] vector, at p: the sum over its 16 places. -/
theorem red_rank_apply (src : FVec Ideal S1024x16 .f32) (hr : S1024x16.Reduces [1] S1024)
    (hφ : FKind.Formats .f32) (hacc : (0x00000000#32 : BitVec 32) = 0x00000000#32) (p : Fin 1024) :
    multiReduction (F := Ideal) .add [1] S1024 src 0x00000000#32 hr hφ hacc (ix1 p) = ∑ r : Fin 16, src (ix2 p r) := by
  refine (Ideal.multiReduction_add_single src 0x00000000#32 hr hφ hacc (ix1 p)).trans ?_
  refine Finset.sum_congr rfl fun r _ => congrArg src ?_
  funext a
  refine Fin.ext ?_
  match a with
  | ⟨0, _⟩ => rfl
  | ⟨1, _⟩ => rfl

/-- A row of 2048 cut into 16 ranks of 128: entry (p, r, q) is entry (p, r * 128 + q). -/
theorem cut_apply {α : Type} (M : S1024x2048.Idx → α) (hc : S1024x2048.ShapeCasts S1024x16x128)
    (p : Fin 1024) (r : Fin 16) (q : Fin 128) :
    shapeCast S1024x16x128 M hc (ix3 p r q) = M (ix2 p (Cert.Score.col r q)) := by
  refine shapeCast_apply M hc (ix3 p r q) (ix2 p (Cert.Score.col r q)) ?_
  rw [Shape.rowMajor_val_two, Shape.rowMajor_val_three]
  show p.val * 2048 + (r.val * 128 + q.val) = (p.val * 16 + r.val) * 128 + q.val
  omega

/-- A [1024 x 128] matrix repeated for each of 16 ranks: entry (p, r, q) is entry (p, q). -/
theorem repeat_apply {α : Type} (M : S1024x128.Idx → α) (hc : S1024x128.ShapeCasts S1024x1x128)
    (hb : S1024x1x128.Broadcasts S1024x16x128) (p : Fin 1024) (r : Fin 16) (q : Fin 128) :
    broadcastTo S1024x16x128 (shapeCast S1024x1x128 M hc) hb (ix3 p r q) = M (ix2 p q) := by
  refine (broadcastTo_apply _ hb (ix3 p r q) (ix3 p (0 : Fin 1) q) ?_).trans ?_
  · intro a
    match a with
    | ⟨0, _⟩ => rfl
    | ⟨1, _⟩ => rfl
    | ⟨2, _⟩ => rfl
  · refine shapeCast_apply M hc (ix3 p (0 : Fin 1) q) (ix2 p q) ?_
    rw [Shape.rowMajor_val_two, Shape.rowMajor_val_three]
    show p.val * 128 + q.val = (p.val * 1 + 0) * 128 + q.val
    omega

/-! ## Selecting a row by a one-hot product -/

/-- A one-hot row of 80 against the laid-out first table: the table's block row h. -/
theorem sel_hi (OH : FVec Ideal S1024x80 .bf16) (a2 : FVec Ideal S80x2048 .bf16) (p : Fin 1024) (h : Fin 80)
    (hOH : ∀ d : Fin 80, OH (ix2 p d) = if d = h then 1 else 0) (c : Fin 2048) :
    matmul dot_S1024x80_S80x2048_S1024x2048_1_0_0_1_n_n none OH a2 (constant (F := Ideal) S1024x2048 .f32 0x00000000#32) (ix2 p c)
      = a2 (ix2 h c) :=
  (mm_hi_apply OH a2 p c).trans (sum_hot h (fun d => OH (ix2 p d)) (fun d => a2 (ix2 d c)) hOH)

/-- A one-hot row of 256 against a padded table: the table's row j. -/
theorem sel_row (OH : FVec Ideal S1024x256 .bf16) (T : FVec Ideal S256x16 .bf16) (p : Fin 1024) (j : Fin 256)
    (hOH : ∀ d : Fin 256, OH (ix2 p d) = if d = j then 1 else 0) (r : Fin 16) :
    matmul dot_S1024x256_S256x16_S1024x16_1_0_0_1_n_n none OH T (constant (F := Ideal) S1024x16 .f32 0x00000000#32) (ix2 p r)
      = T (ix2 j r) :=
  (mm_row_apply OH T p r).trans (sum_hot j (fun d => OH (ix2 p d)) (fun d => T (ix2 d r)) hOH)

/-- Inside the selected block row, the one-hot row of 128 summed against each rank's 128 places: the place l of rank r. -/
theorem sel_lo (M : FVec Ideal S1024x2048 .f32) (OH : FVec Ideal S1024x128 .bf16) (hb : FTy.bits .bf16 < FTy.bits .f32)
    (hc1 : S1024x2048.ShapeCasts S1024x16x128) (hc2 : S1024x128.ShapeCasts S1024x1x128)
    (hbc : S1024x1x128.Broadcasts S1024x16x128) (hr : S1024x16x128.Reduces [2] S1024x16) (hφ : FKind.Formats .f32)
    (hacc : (0x00000000#32 : BitVec 32) = 0x00000000#32) (p : Fin 1024) (r : Fin 16) (l : Fin 128)
    (hOH : ∀ q : Fin 128, OH (ix2 p q) = if q = l then 1 else 0) :
    multiReduction (F := Ideal) .add [2] S1024x16
        (extf .f32 (mulf (shapeCast S1024x16x128 (truncf .bf16 M hb) hc1)
          (broadcastTo S1024x16x128 (shapeCast S1024x1x128 OH hc2) hbc)) hb) 0x00000000#32 hr hφ hacc (ix2 p r)
      = M (ix2 p (Cert.Score.col r l)) := by
  refine (red_lane_apply _ hr hφ hacc p r).trans ?_
  refine Eq.trans (Finset.sum_congr rfl fun q _ => ?_)
    (sum_hot l (fun q => OH (ix2 p q)) (fun q => M (ix2 p (Cert.Score.col r q))) hOH)
  show shapeCast S1024x16x128 (truncf .bf16 M hb) hc1 (ix3 p r q)
      * broadcastTo S1024x16x128 (shapeCast S1024x1x128 OH hc2) hbc (ix3 p r q) = OH (ix2 p q) * M (ix2 p (Cert.Score.col r q))
  rw [cut_apply, repeat_apply, mul_comm]
  rfl

/-! ## The payloads at an entry -/

/-- The second position's one-hot matrix. -/
theorem pay3_apply (vj : Vec Ideal S1024 .i32) (p : Fin 1024) (d : Fin 256) :
    k0_pay3 (F := Ideal) (iota .tc S1024x256 32 [1] Facts₀.iota_S1024x256_d1_w32) vj (ix2 p d)
      = if vj (ix1 p) = BitVec.ofNat 32 d.val then 1 else 0 := by
  unfold k0_pay3
  rw [shapeCast_self]
  exact onehot_apply (n := 256) vj _ _ _ _ _ p d

/-- The third position's one-hot matrix. -/
theorem pay4_apply (vk : Vec Ideal S1024 .i32) (p : Fin 1024) (d : Fin 256) :
    k0_pay4 (F := Ideal) (iota .tc S1024x256 32 [1] Facts₀.iota_S1024x256_d1_w32) vk (ix2 p d)
      = if vk (ix1 p) = BitVec.ofNat 32 d.val then 1 else 0 := by
  unfold k0_pay4
  rw [shapeCast_self]
  exact onehot_apply (n := 256) vk _ _ _ _ _ p d

/-- The first table's selected row: rank r of the row at position h * 128 + l is entry (h, r * 128 + l) of the layout. -/
theorem pay5_apply (v1 : FVec Ideal S80x2048 .bf16) (vi : Vec Ideal S1024 .i32) (p : Fin 1024) (h : Fin 80) (l : Fin 128)
    (hi : vi (ix1 p) = BitVec.ofNat 32 (h.val * 128 + l.val)) (r : Fin 16) :
    k0_pay5 (F := Ideal) v1 (iota .tc S1024x80 32 [1] Facts₀.iota_S1024x80_d1_w32)
        (iota .tc S1024x128 32 [1] Facts₀.iota_S1024x128_d1_w32) vi (ix2 p r)
      = v1 (ix2 h (Cert.Score.col r l)) := by
  have hhi : ∀ hc : S1024.ShapeCasts S1024,
      shrsi (shapeCast S1024 vi hc) (broadcast S1024 7#32) (ix1 p) = BitVec.ofNat 32 h.val := fun hc => by
    show IntOp.shrsi .vector (shapeCast S1024 vi hc (ix1 p)) 7#32 = _
    rw [shapeCast_self, hi]
    exact shr7 h.val l.val h.isLt l.isLt
  have hlo : ∀ hc : S1024.ShapeCasts S1024,
      andi (shapeCast S1024 vi hc) (broadcast S1024 127#32) (ix1 p) = BitVec.ofNat 32 l.val := fun hc => by
    show IntOp.andi (shapeCast S1024 vi hc (ix1 p)) 127#32 = _
    rw [shapeCast_self, hi]
    exact and127 h.val l.val h.isLt l.isLt
  unfold k0_pay5
  refine (sel_lo _ _ _ _ _ _ _ _ _ p r l ?_).trans ?_
  · intro q
    refine (onehot_apply (n := 128) _ _ _ _ _ _ p q).trans ?_
    exact hot_at (by decide) _ l q (hlo _)
  · refine sel_hi _ _ p h ?_ _
    intro d
    refine (onehot_apply (n := 80) _ _ _ _ _ _ p d).trans ?_
    exact hot_at (by decide) _ h d (hhi _)

/-- The bias read at its one place. -/
theorem bias_apply (bias : Vec Ideal S1 .f32) (hp : ∀ a, (![0] : Fin 1 → Nat) a < S1.size a) :
    extractAt ![0] bias hp = bias (ix1 (0 : Fin 1)) := by
  unfold extractAt
  refine congrArg bias (funext fun a => Fin.ext ?_)
  match a with
  | ⟨0, _⟩ => rfl

/-- The score of a row from the three selections: the logistic of the sum over the 16 ranks of the three factors, plus the bias. -/
theorem pay2_apply (bp cwp : Vec Ideal S256x16 .bf16) (bias : Vec Ideal S1 .f32) (v46 v52 : FVec Ideal S1024x256 .bf16)
    (v62 : FVec Ideal S1024x16 .f32) (p : Fin 1024) :
    k0_pay2 (F := Ideal) bp cwp bias v46 v52 v62 (constant S1024x16 .f32 0x00000000#32) (ix1 p)
      = Ideal.logistic ((∑ r : Fin 16, v62 (ix2 p r) * (∑ k : Fin 256, v46 (ix2 p k) * bp (ix2 k r))
          * (∑ k : Fin 256, v52 (ix2 p k) * cwp (ix2 k r))) + bias (ix1 (0 : Fin 1))) := by
  unfold k0_pay2
  rw [shapeCast_self, shapeCast_self]
  show Ideal.logistic (multiReduction (F := Ideal) .add [1] S1024 _ 0x00000000#32 _ _ _ (ix1 p) + extractAt ![0] bias _) = _
  rw [red_rank_apply, bias_apply]
  refine congrArg (fun s => Ideal.logistic (s + bias (ix1 (0 : Fin 1)))) (Finset.sum_congr rfl fun r _ => ?_)
  show v62 (ix2 p r) * matmul dot_S1024x256_S256x16_S1024x16_1_0_0_1_n_n none v46 bp (constant (F := Ideal) S1024x16 .f32 0x00000000#32) (ix2 p r)
      * matmul dot_S1024x256_S256x16_S1024x16_1_0_0_1_n_n none v52 cwp (constant (F := Ideal) S1024x16 .f32 0x00000000#32) (ix2 p r) = _
  rw [mm_row_apply, mm_row_apply]

/-! ## One row of one trip -/

theorem pay_row (a2 : Vec Ideal S80x2048 .bf16) (bp cwp : Vec Ideal S256x16 .bf16) (bias : Vec Ideal S1 .f32)
    (vi vj vk : Vec Ideal S1024 .i32) (p : Fin 1024) (h : Fin 80) (l : Fin 128) (jj kk : Fin 256)
    (hi : vi (ix1 p) = BitVec.ofNat 32 (h.val * 128 + l.val)) (hj : vj (ix1 p) = BitVec.ofNat 32 jj.val)
    (hk : vk (ix1 p) = BitVec.ofNat 32 kk.val) :
    k0_pay2 (F := Ideal) bp cwp bias
        (k0_pay3 (iota .tc S1024x256 32 [1] Facts₀.iota_S1024x256_d1_w32) vj)
        (k0_pay4 (iota .tc S1024x256 32 [1] Facts₀.iota_S1024x256_d1_w32) vk)
        (k0_pay5 (k0_pay1 a2) (iota .tc S1024x80 32 [1] Facts₀.iota_S1024x80_d1_w32) (iota .tc S1024x128 32 [1] Facts₀.iota_S1024x128_d1_w32) vi)
        (constant S1024x16 .f32 0x00000000#32) (ix1 p)
      = Ideal.logistic ((∑ r : Fin 16, a2 (ix2 h (Cert.Score.col r l)) * bp (ix2 jj r) * cwp (ix2 kk r))
          + bias (ix1 (0 : Fin 1))) := by
  have h1 : k0_pay1 (F := Ideal) a2 = a2 := by
    unfold k0_pay1
    exact shapeCast_self a2 _
  rw [h1]
  refine (pay2_apply bp cwp bias _ _ _ p).trans ?_
  refine congrArg (fun s => Ideal.logistic (s + bias (ix1 (0 : Fin 1)))) (Finset.sum_congr rfl fun r _ => ?_)
  have ej : ∑ k : Fin 256, k0_pay3 (F := Ideal) (iota .tc S1024x256 32 [1] Facts₀.iota_S1024x256_d1_w32) vj (ix2 p k) * bp (ix2 k r)
      = bp (ix2 jj r) :=
    sum_hot jj _ (fun k => bp (ix2 k r)) fun d => (pay3_apply vj p d).trans (hot_at (by decide) _ jj d hj)
  have ek : ∑ k : Fin 256, k0_pay4 (F := Ideal) (iota .tc S1024x256 32 [1] Facts₀.iota_S1024x256_d1_w32) vk (ix2 p k) * cwp (ix2 k r)
      = cwp (ix2 kk r) :=
    sum_hot kk _ (fun k => cwp (ix2 k r)) fun d => (pay4_apply vk p d).trans (hot_at (by decide) _ kk d hk)
  rw [ej, ek, pay5_apply a2 vi p h l hi r]

end Cert.KernelIdeal.RowValue

end
-- ==== Proof.KernelValue.lean ====
/-
  The kernel's result is the score function of the arguments, when every position is inside its table.

  Entry n of the result lies in block n / 8192, trip (n % 8192) / 1024, row n % 1024. That row's three position words are
  the arguments' entries n; with i n = 128 hi + lo inside table A, the one-hot selections pick row i n of A, row j n of B
  and row k n of C times the weights, and what is left is the logistic of their rank-wise product summed, plus the bias.
-/
import proofs.«414439_j30202210025786_3_alg».proof.Proof.ArrayValue
import proofs.«414439_j30202210025786_3_alg».proof.Proof.HostArrays
import proofs.«414439_j30202210025786_3_alg».proof.Proof.Score
import proofs.«414439_j30202210025786_3_alg».proof.Proof.RowValue
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.BlockPieces Cert.KernelIdeal.ArrayValue Cert.KernelIdeal.HostArrays
open Idealize.ShloMosaic Idealize.ShloMosaic.TcCoe Idealize.SL.Sem Idealize.ShloMosaic.ValueIdx

variable (m : (ℓ : Loc nD τ sig) → Buf (Elt Ideal) ℓ)

/-- Where each input window's block sits: the three position windows move with the grid point, the tables and the
    bias are one block each. -/
theorem idx_in : ∀ t : Fin cfg0.N, win0_0.index t (0 : Fin 1) = t.val ∧ win0_1.index t (0 : Fin 1) = t.val
    ∧ win0_2.index t (0 : Fin 1) = t.val ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0
    ∧ win0_5.index t (1 : Fin 2) = 0 ∧ win0_6.index t (0 : Fin 1) = 0 :=
  (by decide +kernel : ∀ t : Fin grid0.N, win0_0.index t (0 : Fin 1) = t.val ∧ win0_1.index t (0 : Fin 1) = t.val
    ∧ win0_2.index t (0 : Fin 1) = t.val ∧ win0_3.index t (0 : Fin 2) = 0 ∧ win0_3.index t (1 : Fin 2) = 0
    ∧ win0_4.index t (0 : Fin 2) = 0 ∧ win0_4.index t (1 : Fin 2) = 0 ∧ win0_5.index t (0 : Fin 2) = 0
    ∧ win0_5.index t (1 : Fin 2) = 0 ∧ win0_6.index t (0 : Fin 1) = 0)

/-- Row p of trip k of block t is entry q = 8192 t + 1024 k + p: the position words read there are the arguments'. -/
theorem pos_i (c : Dev nD) (t : Fin cfg0.N) (k : Fin k0_t1_loop.trips) (p : Fin 1024) (q : Fin 4000000)
    (hq : q.val = t.val * 8192 + 1024 * k.val + p.val) :
    View.ld (iblk m c 0 t) (tripRect k) (ix1 p) = argi m c (ix1 q) := by
  have he := tripRect_emb k (ix1 p)
  have e : ((cfg0.win 0).blk t).view.emb ((tripRect k).emb (ix1 p)) = ix1 (⟨q.val, by omega⟩ : Fin 4005888) := by
    funext a
    match a with
    | ⟨0, _⟩ =>
      refine Fin.ext ?_
      show win0_0.index t (0 : Fin 1) * 8192 + 1 * ((tripRect k).emb (ix1 p) 0).val = q.val
      rw [(idx_in t).1, he]; show t.val * 8192 + 1 * (1024 * k.val + p.val) = q.val; omega
  show V m c main_v0 (((cfg0.win 0).blk t).view.emb ((tripRect k).emb (ix1 p))) = _
  rw [e]
  exact V_v0 m c q

theorem pos_j (c : Dev nD) (t : Fin cfg0.N) (k : Fin k0_t1_loop.trips) (p : Fin 1024) (q : Fin 4000000)
    (hq : q.val = t.val * 8192 + 1024 * k.val + p.val) :
    View.ld (iblk m c 1 t) (tripRect k) (ix1 p) = argj m c (ix1 q) := by
  have he := tripRect_emb k (ix1 p)
  have e : ((cfg0.win 1).blk t).view.emb ((tripRect k).emb (ix1 p)) = ix1 (⟨q.val, by omega⟩ : Fin 4005888) := by
    funext a
    match a with
    | ⟨0, _⟩ =>
      refine Fin.ext ?_
      show win0_1.index t (0 : Fin 1) * 8192 + 1 * ((tripRect k).emb (ix1 p) 0).val = q.val
      rw [(idx_in t).2.1, he]; show t.val * 8192 + 1 * (1024 * k.val + p.val) = q.val; omega
  show V m c main_v1 (((cfg0.win 1).blk t).view.emb ((tripRect k).emb (ix1 p))) = _
  rw [e]
  exact V_v1 m c q

theorem pos_k (c : Dev nD) (t : Fin cfg0.N) (k : Fin k0_t1_loop.trips) (p : Fin 1024) (q : Fin 4000000)
    (hq : q.val = t.val * 8192 + 1024 * k.val + p.val) :
    View.ld (iblk m c 2 t) (tripRect k) (ix1 p) = argk m c (ix1 q) := by
  have he := tripRect_emb k (ix1 p)
  have e : ((cfg0.win 2).blk t).view.emb ((tripRect k).emb (ix1 p)) = ix1 (⟨q.val, by omega⟩ : Fin 4005888) := by
    funext a
    match a with
    | ⟨0, _⟩ =>
      refine Fin.ext ?_
      show win0_2.index t (0 : Fin 1) * 8192 + 1 * ((tripRect k).emb (ix1 p) 0).val = q.val
      rw [(idx_in t).2.2.1, he]; show t.val * 8192 + 1 * (1024 * k.val + p.val) = q.val; omega
  show V m c main_v2 (((cfg0.win 2).blk t).view.emb ((tripRect k).emb (ix1 p))) = _
  rw [e]
  exact V_v2 m c q

/-- The table blocks are the whole tables. -/
theorem tabA (c : Dev nD) (t : Fin cfg0.N) (y : S80x2048.Idx) : iblk m c 3 t y = (V m c main_v7 : FVec Ideal S80x2048 .bf16) y := by
  obtain ⟨_, _, _, e0, e1, _⟩ := idx_in t
  have e : ((cfg0.win 3).blk t).view.emb y = y := by
    funext a
    match a with
    | ⟨0, _⟩ => exact Fin.ext (by show win0_3.index t (0 : Fin 2) * 80 + 1 * (y 0).val = (y 0).val; rw [e0]; omega)
    | ⟨1, _⟩ => exact Fin.ext (by show win0_3.index t (1 : Fin 2) * 2048 + 1 * (y 1).val = (y 1).val; rw [e1]; omega)
  show V m c main_v7 (((cfg0.win 3).blk t).view.emb y) = _
  rw [e]

theorem tabB (c : Dev nD) (t : Fin cfg0.N) (y : S256x16.Idx) : iblk m c 4 t y = (V m c main_v9 : FVec Ideal S256x16 .bf16) y := by
  obtain ⟨_, _, _, _, _, e0, e1, _⟩ := idx_in t
  have e : ((cfg0.win 4).blk t).view.emb y = y := by
    funext a
    match a with
    | ⟨0, _⟩ => exact Fin.ext (by show win0_4.index t (0 : Fin 2) * 256 + 1 * (y 0).val = (y 0).val; rw [e0]; omega)
    | ⟨1, _⟩ => exact Fin.ext (by show win0_4.index t (1 : Fin 2) * 16 + 1 * (y 1).val = (y 1).val; rw [e1]; omega)
  show V m c main_v9 (((cfg0.win 4).blk t).view.emb y) = _
  rw [e]

theorem tabC (c : Dev nD) (t : Fin cfg0.N) (y : S256x16.Idx) : iblk m c 5 t y = (V m c main_v13 : FVec Ideal S256x16 .bf16) y := by
  obtain ⟨_, _, _, _, _, _, _, e0, e1, _⟩ := idx_in t
  have e : ((cfg0.win 5).blk t).view.emb y = y := by
    funext a
    match a with
    | ⟨0, _⟩ => exact Fin.ext (by show win0_5.index t (0 : Fin 2) * 256 + 1 * (y 0).val = (y 0).val; rw [e0]; omega)
    | ⟨1, _⟩ => exact Fin.ext (by show win0_5.index t (1 : Fin 2) * 16 + 1 * (y 1).val = (y 1).val; rw [e1]; omega)
  show V m c main_v13 (((cfg0.win 5).blk t).view.emb y) = _
  rw [e]

theorem tabBias (c : Dev nD) (t : Fin cfg0.N) : iblk m c 6 t (ix1 (0 : Fin 1)) = argb m c (ix1 (0 : Fin 1)) := by
  obtain ⟨_, _, _, _, _, _, _, _, _, e0⟩ := idx_in t
  have e : ((cfg0.win 6).blk t).view.emb (ix1 (0 : Fin 1)) = ix1 (0 : Fin 1) := by
    funext a
    match a with
    | ⟨0, _⟩ => exact Fin.ext (by show win0_6.index t (0 : Fin 1) * 1 + 1 * 0 = 0; rw [e0])
  show V m c main_arg4 (((cfg0.win 6).blk t).view.emb (ix1 (0 : Fin 1))) = _
  rw [e, V_main_arg4]

/-- A position inside its table is the word of its own number, below the table's height. -/
theorem word_of_range (w : BitVec 32) (N : Nat) (hN : N < 2 ^ 31) (h0 : 0 ≤ w.toInt) (h1 : w.toInt < N) :
    w.toNat < N ∧ w = BitVec.ofNat 32 w.toNat := by
  have h32 := w.isLt
  have : w.toInt = w.toNat := by
    unfold BitVec.toInt at h0 ⊢
    split <;> omega
  exact ⟨by omega, BitVec.eq_of_toNat_eq (by rw [BitVec.toNat_ofNat, Nat.mod_eq_of_lt w.isLt])⟩

/-- THE RESULT: the first 4000000 entries of the output array are the scores. -/
theorem result_eq (c : Dev nD)
    (hi : ∀ n, 0 ≤ (argi m c n).toInt ∧ (argi m c n).toInt < 10000)
    (hj : ∀ n, 0 ≤ (argj m c n).toInt ∧ (argj m c n).toInt < 144)
    (hk : ∀ n, 0 ≤ (argk m c n).toInt ∧ (argk m c n).toInt < 144) :
    extractStridedSlice S4000000 ![0] (arrFn m c) Facts₀.slices_S4005888_S4000000_0
      = Cert.Score.G (argA m c) (argB m c) (argC m c) (argW m c) (argb m c) (argi m c) (argj m c) (argk m c) := by
  funext n
  obtain ⟨q, rfl⟩ : ∃ q : Fin 4000000, n = ix1 q := ⟨n 0, eq_ix1 n⟩
  have hqlt : q.val < 4000000 := q.isLt
  rw [extractStridedSlice_apply ![0] (arrFn m c) _ (ix1 q) (ix1 (⟨q.val, by omega⟩ : Fin 4005888))
    (fun a => by match a with | ⟨0, _⟩ => show q.val = 0 + q.val; omega)]
  -- the three position words of entry q
  obtain ⟨hI, wi⟩ := word_of_range _ 10000 (by decide) (hi (ix1 q)).1 (hi (ix1 q)).2
  obtain ⟨hJ, wj⟩ := word_of_range _ 144 (by decide) (hj (ix1 q)).1 (hj (ix1 q)).2
  obtain ⟨hK, wk⟩ := word_of_range _ 144 (by decide) (hk (ix1 q)).1 (hk (ix1 q)).2
  -- block, trip and row of entry q
  have hN0 : ((ix1 (⟨q.val, by omega⟩ : Fin 4005888) : S4005888.Idx) 0).val = q.val := rfl
  unfold arrFn blockFn tripPay
  generalize hk' : (⟨(inBlk (ix1 (⟨q.val, by omega⟩ : Fin 4005888)) 0).val / 1024, _⟩ : Fin k0_t1_loop.trips) = k
  generalize hp' : (⟨(inBlk (ix1 (⟨q.val, by omega⟩ : Fin 4005888)) 0).val % 1024, _⟩ : Fin 1024) = p
  generalize ht' : pt (ix1 (⟨q.val, by omega⟩ : Fin 4005888)) = t
  have hkv : k.val = q.val % 8192 / 1024 := by rw [← hk']; rfl
  have hpv : p.val = q.val % 8192 % 1024 := by rw [← hp']; rfl
  have htv : t.val = q.val / 8192 := by rw [← ht']; rfl
  have hq : q.val = t.val * 8192 + 1024 * k.val + p.val := by omega
  refine (Cert.KernelIdeal.RowValue.pay_row (iblk m c 3 t) (iblk m c 4 t) (iblk m c 5 t) (iblk m c 6 t)
    (View.ld (iblk m c 0 t) (tripRect k)) (View.ld (iblk m c 1 t) (tripRect k)) (View.ld (iblk m c 2 t) (tripRect k)) p
    (⟨(argi m c (ix1 q)).toNat / 128, by omega⟩ : Fin 80) (⟨(argi m c (ix1 q)).toNat % 128, Nat.mod_lt _ (by decide)⟩ : Fin 128)
    (⟨(argj m c (ix1 q)).toNat, by omega⟩ : Fin 256) (⟨(argk m c (ix1 q)).toNat, by omega⟩ : Fin 256) ?_ ?_ ?_).trans ?_
  · rw [pos_i m c t k p q hq]
    show argi m c (ix1 q) = BitVec.ofNat 32 ((argi m c (ix1 q)).toNat / 128 * 128 + (argi m c (ix1 q)).toNat % 128)
    rw [Nat.div_add_mod']; exact wi
  · rw [pos_j m c t k p q hq]; exact wj
  · rw [pos_k m c t k p q hq]; exact wk
  · -- the selected rows are the arguments' rows
    have ra : Cert.RowTake.rowOf 10000 (by decide) (argi m c (ix1 q)) = (⟨(argi m c (ix1 q)).toNat, hI⟩ : Fin 10000) :=
      Fin.ext (Cert.Score.rowOf_of_range _ _ (hi (ix1 q)).1 (hi (ix1 q)).2)
    have rb : Cert.RowTake.rowOf 144 (by decide) (argj m c (ix1 q)) = (⟨(argj m c (ix1 q)).toNat, hJ⟩ : Fin 144) :=
      Fin.ext (Cert.Score.rowOf_of_range _ _ (hj (ix1 q)).1 (hj (ix1 q)).2)
    have rc : Cert.RowTake.rowOf 144 (by decide) (argk m c (ix1 q)) = (⟨(argk m c (ix1 q)).toNat, hK⟩ : Fin 144) :=
      Fin.ext (Cert.Score.rowOf_of_range _ _ (hk (ix1 q)).1 (hk (ix1 q)).2)
    unfold Cert.Score.G Cert.Score.scoreAt
    rw [ra, rb, rc, ← Cert.Score.logitOf_fold]
    refine congrArg Ideal.logistic (congrArg₂ (· + ·) (Finset.sum_congr rfl fun r _ => ?_) (tabBias m c t))
    refine congrArg₂ (· * ·) (congrArg₂ (· * ·) ?_ ?_) ?_
    · rw [tabA]
      refine (V_v7 m c _ r _ (by show (argi m c (ix1 q)).toNat / 128 * 128 + (argi m c (ix1 q)).toNat % 128 < 10000; omega)).trans ?_
      exact congrArg (fun z : Fin 10000 => argA m c (ix2 z r)) (Fin.ext (by
        show (argi m c (ix1 q)).toNat / 128 * 128 + (argi m c (ix1 q)).toNat % 128 = (argi m c (ix1 q)).toNat; omega))
    · rw [tabB]; exact V_v9 m c ⟨(argj m c (ix1 q)).toNat, hJ⟩ r
    · rw [tabC]; exact V_v13 m c ⟨(argk m c (ix1 q)).toNat, hK⟩ r

/-- THE RUN: every execution of the kernel's program ends with the scores in its result and its arguments as they were. -/
theorem kernel_run (ρ : Dev nD → PrngReg)
    (hi : ∀ c n, 0 ≤ (argi m c n).toInt ∧ (argi m c n).toInt < 10000)
    (hj : ∀ c n, 0 ≤ (argj m c n).toInt ∧ (argj m c n).toInt < 144)
    (hk : ∀ c n, 0 ≤ (argk m c n).toInt ∧ (argk m c n).toInt < 144) :
    θ_run defs (onTc (τ := τ) (main (F := Ideal))) ⟨m, fun _ => 0, ρ⟩ (fun r => ∀ c : Dev nD,
      r.2.mem ((c.tc : Thread nD τ).loc main_v15)
        = Cert.Score.G (argA m c) (argB m c) (argC m c) (argW m c) (argb m c) (argi m c) (argj m c) (argk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v15 (Pipeline.mem_restRefs_of main_v15 (by decide) (by decide))).trans
        ((tail_eq m c).trans (result_eq m c (hi c) (hj c) (hk c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.KernelValue

end
-- ==== Proof.RefValue.lean ====
/-
  The reference's result is the score function of the arguments.

  Entry n of the reference: each position vector passes the wrap-around  p < 0 ? p + rows : p  (the
  identity on a position that is not negative), is laid out as a column, and takes whole rows of its
  table; the three rows are multiplied rank by rank, ((a * b) * c), contracted with the transposed
  weight column over the 16 ranks, the bias is added, and the sum goes through  1 / (1 + exp (-x)),
  which is the logistic function.
-/
import proofs.«414439_j30202210025786_3_alg».proof.Proof.Gen.ReferenceIdeal.Read
import proofs.«414439_j30202210025786_3_alg».proof.Proof.Score
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The bit pattern 0x3F800000 is the number one. -/
theorem one_bits : Ideal.ofBits .f32 0x3F800000#32 = 1 := by
  simp [Ideal.ofBits, Ideal.ieee, -EReal.coe_mul]; norm_num

/-- Entry (e, 0) of the column of wrapped positions of the first vector is position e itself. -/
theorem wrapA (x5 : (⟨S4000000, .i32⟩ : BufTy).Contents (Elt Ideal)) (h5 : ∀ n, 0 ≤ (x5 n).toInt) (e : Fin 4000000) :
    val_main_v5 (F := Ideal) x5 (ix2 e (0 : Fin 1)) = x5 (ix1 e) := by
  rw [val_main_v5_apply]
  have hidx : idx_main_v5 (ix2 e (0 : Fin 1)) = ix1 e := funext fun a => match a with | ⟨0, _⟩ => rfl
  rw [hidx]
  unfold val_main_v4 val_main_v1 val_main_v3
  exact Cert.RowTake.wrap_of_nonneg x5 _ _ (fun j => by rw [val_main_v0_apply, val_main_c_apply]) (ix1 e) (h5 _)

/-- The same for the second vector. -/
theorem wrapB (x6 : (⟨S4000000, .i32⟩ : BufTy).Contents (Elt Ideal)) (h6 : ∀ n, 0 ≤ (x6 n).toInt) (e : Fin 4000000) :
    val_main_v12 (F := Ideal) x6 (ix2 e (0 : Fin 1)) = x6 (ix1 e) := by
  rw [val_main_v12_apply]
  have hidx : idx_main_v12 (ix2 e (0 : Fin 1)) = ix1 e := funext fun a => match a with | ⟨0, _⟩ => rfl
  rw [hidx]
  unfold val_main_v11 val_main_v8 val_main_v10
  exact Cert.RowTake.wrap_of_nonneg x6 _ _ (fun j => by rw [val_main_v7_apply, val_main_c_1_apply]) (ix1 e) (h6 _)

/-- The same for the third vector. -/
theorem wrapC (x7 : (⟨S4000000, .i32⟩ : BufTy).Contents (Elt Ideal)) (h7 : ∀ n, 0 ≤ (x7 n).toInt) (e : Fin 4000000) :
    val_main_v19 (F := Ideal) x7 (ix2 e (0 : Fin 1)) = x7 (ix1 e) := by
  rw [val_main_v19_apply]
  have hidx : idx_main_v19 (ix2 e (0 : Fin 1)) = ix1 e := funext fun a => match a with | ⟨0, _⟩ => rfl
  rw [hidx]
  unfold val_main_v18 val_main_v15 val_main_v17
  exact Cert.RowTake.wrap_of_nonneg x7 _ _ (fun j => by rw [val_main_v14_apply, val_main_c_3_apply]) (ix1 e) (h7 _)

/-- The rows taken of the first table: entry (e, q) is the table at (row of position e, q). -/
theorem rowA (x0 : (⟨S10000x16, .f32⟩ : BufTy).Contents (Elt Ideal)) (x5 : (⟨S4000000, .i32⟩ : BufTy).Contents (Elt Ideal))
    (h5 : ∀ n, 0 ≤ (x5 n).toInt) (e : Fin 4000000) (q : Fin 16) :
    val_main_v6 (F := Ideal) x0 x5 (ix2 e q)
      = x0 (ix2 (Cert.RowTake.rowOf 10000 (by decide) (x5 (ix1 e))) q) := by
  unfold val_main_v6
  have hrec : gather_S10000x16_S4000000x1_S4000000x16_1_0_n_n_0_1_116
      = Cert.RowTake.rowDims 10000 16 4000000 gather_S10000x16_S4000000x1_S4000000x16_1_0_n_n_0_1_116.wf := rfl
  rw [hrec]
  refine (Cert.RowTake.gather_rows_apply (by decide) _ x0 (val_main_v5 (F := Ideal) x5) e q).trans ?_
  rw [wrapA x5 h5 e]

/-- The rows taken of the second table. -/
theorem rowB (x1 : (⟨S144x16, .f32⟩ : BufTy).Contents (Elt Ideal)) (x6 : (⟨S4000000, .i32⟩ : BufTy).Contents (Elt Ideal))
    (h6 : ∀ n, 0 ≤ (x6 n).toInt) (e : Fin 4000000) (q : Fin 16) :
    val_main_v13 (F := Ideal) x1 x6 (ix2 e q)
      = x1 (ix2 (Cert.RowTake.rowOf 144 (by decide) (x6 (ix1 e))) q) := by
  unfold val_main_v13
  have hrec : gather_S144x16_S4000000x1_S4000000x16_1_0_n_n_0_1_116
      = Cert.RowTake.rowDims 144 16 4000000 gather_S144x16_S4000000x1_S4000000x16_1_0_n_n_0_1_116.wf := rfl
  rw [hrec]
  refine (Cert.RowTake.gather_rows_apply (by decide) _ x1 (val_main_v12 (F := Ideal) x6) e q).trans ?_
  rw [wrapB x6 h6 e]

/-- The rows taken of the third table. -/
theorem rowC (x2 : (⟨S144x16, .f32⟩ : BufTy).Contents (Elt Ideal)) (x7 : (⟨S4000000, .i32⟩ : BufTy).Contents (Elt Ideal))
    (h7 : ∀ n, 0 ≤ (x7 n).toInt) (e : Fin 4000000) (q : Fin 16) :
    val_main_v20 (F := Ideal) x2 x7 (ix2 e q)
      = x2 (ix2 (Cert.RowTake.rowOf 144 (by decide) (x7 (ix1 e))) q) := by
  unfold val_main_v20
  have hrec : gather_S144x16_S4000000x1_S4000000x16_1_0_n_n_0_1_116
      = Cert.RowTake.rowDims 144 16 4000000 gather_S144x16_S4000000x1_S4000000x16_1_0_n_n_0_1_116.wf := rfl
  rw [hrec]
  refine (Cert.RowTake.gather_rows_apply (by decide) _ x2 (val_main_v19 (F := Ideal) x7) e q).trans ?_
  rw [wrapC x7 h7 e]

/-- The sum before the sigmoid at entry (e, 0): the contraction of the three selected rows with the weights,
    plus the bias. -/
theorem logit_at (x0 : (⟨S10000x16, .f32⟩ : BufTy).Contents (Elt Ideal)) (x1 x2 : (⟨S144x16, .f32⟩ : BufTy).Contents (Elt Ideal))
    (x3 : (⟨S1x16, .f32⟩ : BufTy).Contents (Elt Ideal)) (x4 : (⟨S1, .f32⟩ : BufTy).Contents (Elt Ideal))
    (x5 x6 x7 : (⟨S4000000, .i32⟩ : BufTy).Contents (Elt Ideal))
    (h5 : ∀ n, 0 ≤ (x5 n).toInt) (h6 : ∀ n, 0 ≤ (x6 n).toInt) (h7 : ∀ n, 0 ≤ (x7 n).toInt) (e : Fin 4000000) :
    val_main_v27 (F := Ideal) x0 x1 x2 x3 x4 x5 x6 x7 (ix2 e (0 : Fin 1))
      = (∑ r : Fin 16, x0 (ix2 (Cert.RowTake.rowOf 10000 (by decide) (x5 (ix1 e))) r)
            * x1 (ix2 (Cert.RowTake.rowOf 144 (by decide) (x6 (ix1 e))) r)
            * x2 (ix2 (Cert.RowTake.rowOf 144 (by decide) (x7 (ix1 e))) r) * x3 (ix2 (0 : Fin 1) r))
        + x4 (ix1 (0 : Fin 1)) := by
  rw [val_main_v27_apply, val_main_v24_apply, val_main_v26_apply, val_main_v25_apply, Ideal.addf_def]
  have hb : idx_main_v25 (idx_main_v26 (ix2 e (0 : Fin 1))) = ix1 (0 : Fin 1) :=
    funext fun a => match a with | ⟨0, _⟩ => rfl
  rw [hb]
  refine congrArg (fun s => s + x4 (ix1 (0 : Fin 1))) (Finset.sum_congr rfl fun r _ => ?_)
  have hl : lidx_main_v24 (ix2 e (0 : Fin 1)) r = ix2 e r :=
    funext fun a => match a with | ⟨0, _⟩ => rfl | ⟨1, _⟩ => rfl
  have hr : ridx_main_v24 (ix2 e (0 : Fin 1)) r = ix2 r (0 : Fin 1) :=
    funext fun a => match a with | ⟨0, _⟩ => rfl | ⟨1, _⟩ => rfl
  have hw : idx_main_v23 (ix2 r (0 : Fin 1)) = ix2 (0 : Fin 1) r :=
    funext fun a => match a with | ⟨0, _⟩ => rfl | ⟨1, _⟩ => rfl
  rw [hl, hr, val_main_v22_apply, val_main_v21_apply, val_main_v23_apply, hw, rowA x0 x5 h5, rowB x1 x6 h6,
    rowC x2 x7 h7, Ideal.mulf_def, Ideal.mulf_def]

/-- The index of the reshaped column. -/
theorem idx_flat (e : Fin 4000000) : idx_main_v28 (ix1 e) = ix2 e (0 : Fin 1) :=
  funext fun a => match a with
    | ⟨0, _⟩ => Fin.ext (Nat.div_one _)
    | ⟨1, _⟩ => rfl

theorem ref_eq_G (x0 : (⟨S10000x16, .f32⟩ : BufTy).Contents (Elt Ideal)) (x1 x2 : (⟨S144x16, .f32⟩ : BufTy).Contents (Elt Ideal))
    (x3 : (⟨S1x16, .f32⟩ : BufTy).Contents (Elt Ideal)) (x4 : (⟨S1, .f32⟩ : BufTy).Contents (Elt Ideal))
    (x5 x6 x7 : (⟨S4000000, .i32⟩ : BufTy).Contents (Elt Ideal))
    (h5 : ∀ n, 0 ≤ (x5 n).toInt) (h6 : ∀ n, 0 ≤ (x6 n).toInt) (h7 : ∀ n, 0 ≤ (x7 n).toInt) :
    Read.val_main_v34 (F := Ideal) x0 x1 x2 x3 x4 x5 x6 x7 = Cert.Score.G x0 x1 x2 x3 x4 x5 x6 x7 := by
  funext n
  obtain ⟨e, rfl⟩ : ∃ e : Fin 4000000, n = ix1 e := ⟨n 0, eq_ix1 n⟩
  rw [val_main_v34_apply, val_main_v33_apply, val_main_cst_5_apply, val_main_v32_apply, val_main_v31_apply,
    val_main_cst_apply, val_main_v30_apply, val_main_v29_apply, val_main_v28_apply, idx_flat,
    logit_at x0 x1 x2 x3 x4 x5 x6 x7 h5 h6 h7 e, Ideal.ofBits_def, one_bits]
  rfl

end Cert.ReferenceIdeal.RefValue

end
-- ==== Proof.PreRange.lean ====
/-
  The precondition read: every position is inside its table.

  The precondition is one bit: the conjunction of five "every entry is finite" bits for the tables, the weights and
  the bias, and of three "every position is in range" bits, one per position vector. Each of the three is the
  conjunction over all entries n of the two comparisons  0 ≤ p n  and  p n < N  of 32-bit words read signed.
  When the whole bit is one, every conjunct is one, so each comparison holds at each entry.
-/
import proofs.«414439_j30202210025786_3_alg».proof.Proof.Gen.Pre_finite_inputs
import Idealize.ShloMosaic.Lib.ReduceAll
import Idealize.ShloMosaic.Lib.StableHlo.Predicate
import Idealize.ShloMosaic.Lib.ValueIdx

noncomputable section

namespace Cert.PreRange

open Cert.Pre_finite_inputs Idealize.ShloMosaic Idealize.ShloMosaic.ValueIdx

/-- The scalar shape has one index. -/
local instance : Subsingleton S_.Idx := ⟨fun a b => funext fun d => d.elim0⟩

/-- One word: when the conjunction of  w ≥ 0  and  w < N  (signed, N below 2³¹) is the bit one, w read signed
    lies in [0, N). -/
theorem word_in_range (w : BitVec 32) (N : Nat) (hN : N < 2 ^ 31)
    (h : IntOp.andi (IntOp.cmpi .sge w 0#32) (IntOp.cmpi .slt w (BitVec.ofNat 32 N)) = 1#1) :
    0 ≤ w.toInt ∧ w.toInt < N := by
  obtain ⟨h0, h1⟩ := IntOp.andi_eq_one.1 h
  rw [IntOp.cmpi_sge] at h0
  rw [IntOp.cmpi_slt, StableHlo.Predicate.toInt_ofNat_small N hN] at h1
  have z : (0#32 : BitVec 32).toInt = 0 := by decide
  rw [z] at h0
  exact ⟨h0, h1⟩

/-- One position vector: when the conjunction over all entries of  p n ≥ 0 ∧ p n < N  is one, every entry lies
    in [0, N). The two bounds are scalars spread over the vector, so at entry n they are the scalars themselves. -/
theorem all_in_range (p : IVec S4000000 32) (N : Nat) (hN : N < 2 ^ 31)
    (hb : S_.BroadcastsInDim S4000000 (![] : Fin 0 → Fin S4000000.rank)) (hr : S4000000.ReducesTo [0] S_)
    (h0 : 0 < S_.numel)
    (h : Host.reduce IntOp.andi
        (andi (cmpi .sge p (broadcastInDim S4000000 ![] hb (constantI S_ 32 0#32)))
          (cmpi .slt p (broadcastInDim S4000000 ![] hb (constantI S_ 32 (BitVec.ofNat 32 N)))))
        (constantI S_ 1 1#1) hr h0 ix0 = 1#1) :
    ∀ n, 0 ≤ (p n).toInt ∧ (p n).toInt < N := fun n =>
  word_in_range (p n) N hN (Host.reduce_andi_all _ _ hr h0 ix0 h n)

theorem ranges (A : FVec Ideal S10000x16 .f32) (B C : FVec Ideal S144x16 .f32) (W : FVec Ideal S1x16 .f32)
    (b : FVec Ideal S1 .f32) (i j k : IVec S4000000 32)
    (h : Cert.Pre_finite_inputs.fn (F := Ideal) A B C W b i j k = fun _ => 1#1) :
    (∀ n, 0 ≤ (i n).toInt ∧ (i n).toInt < 10000) ∧ (∀ n, 0 ≤ (j n).toInt ∧ (j n).toInt < 144)
      ∧ (∀ n, 0 ≤ (k n).toInt ∧ (k n).toInt < 144) := by
  have e := congrFun h ix0
  unfold Cert.Pre_finite_inputs.fn Cert.Pre_finite_inputs.fn_part1 Cert.Pre_finite_inputs.fn_part2 at e
  dsimp only at e
  -- the outer three conjunctions of bits, at the one scalar index
  obtain ⟨e, hk⟩ := IntOp.andi_eq_one.1 e
  obtain ⟨e, hj⟩ := IntOp.andi_eq_one.1 e
  obtain ⟨-, hi⟩ := IntOp.andi_eq_one.1 e
  exact ⟨all_in_range i 10000 (by decide) _ _ _ hi, all_in_range j 144 (by decide) _ _ _ hj,
    all_in_range k 144 (by decide) _ _ _ hk⟩

end Cert.PreRange

end
-- ==== Proof.lean ====
/-
  The kernel scores 4000000 (i, j, k) entries of a rank-16 factor model:

      out[n] = logistic ( sum over r < 16 of  A[i n, r] * B[j n, r] * C[k n, r] * W[0, r]  +  b[0] ),

  and so does the reference. The reference takes the three rows by indexing (a negative position counted from the
  end, then clamped into the table), multiplies them rank by rank, contracts with the weight row, adds the bias and
  applies 1 / (1 + exp (-x)). The kernel takes the same rows by one-hot products: a row of zeros with a single one,
  times a table, is that table's row — on the extended reals 0 * x = 0 and 1 * x = x for every x, so no finiteness is
  used — with table A laid out 128 rows side by side and the position split into its high part and its low seven bits,
  and with the weight row multiplied into table C beforehand. The two sums differ only in how the four factors are
  grouped, (A * B) * (C * W) against ((A * B) * C) * W, and multiplication of extended reals is associative; the
  logistic function is the same expression on both sides.

  This holds for positions inside their tables: 0 <= i < 10000 and 0 <= j, k < 144, which the precondition states.
  Outside them the two programs differ: the reference still reads a row (the last one for i = 10000, and row
  10000 + i for a negative i), while no column of the kernel's one-hot row matches, so it reads a row of zeros.

  The kernel's side is read off its run: each of the 489 grid points runs eight trips of 1024 entries; the trips' stores
  tile the point's output block, the blocks tile the output array, and the host line after the region keeps the first
  4000000 entries. The narrowing to sixteen bits and back that the kernel applies to the selected row of A is the
  identity on the extended reals: that is the one step between the kernel and its idealized form.
-/
import proofs.«414439_j30202210025786_3_alg».proof.Defs
import proofs.«414439_j30202210025786_3_alg».proof.Proof.Gen.Kernel
import proofs.«414439_j30202210025786_3_alg».proof.Proof.Gen.Kernel.Frame
import proofs.«414439_j30202210025786_3_alg».proof.Proof.Gen.KernelIdeal
import proofs.«414439_j30202210025786_3_alg».proof.Proof.Gen.KernelIdeal.Frame
import proofs.«414439_j30202210025786_3_alg».proof.Proof.Gen.ReferenceIdeal
import proofs.«414439_j30202210025786_3_alg».proof.Proof.Gen.ReferenceIdeal.Run
import proofs.«414439_j30202210025786_3_alg».proof.Proof.Gen.ReferenceIdeal.Read
import proofs.«414439_j30202210025786_3_alg».proof.Proof.Gen.Pre_finite_inputs
import proofs.«414439_j30202210025786_3_alg».proof.Proof.KernelValue
import proofs.«414439_j30202210025786_3_alg».proof.Proof.RefValue
import proofs.«414439_j30202210025786_3_alg».proof.Proof.PreRange
import Idealize.ShloMosaic.Adequacy
import Idealize.ShloMosaic.Init

noncomputable section

namespace Cert.Proof

open Idealize.ShloMosaic Idealize.SL.Sem
open Cert.KernelIdeal.HostArrays (argA argB argC argW argb argi argj argk)

/-- Both forms of the kernel run to the end without a fault and leave their arguments alone. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Narrowing a [1024, 16] vector to sixteen bits and widening it back is the identity on the extended reals. -/
theorem preserves : Cert.preserves_Kernel_KernelIdeal :=
  IdealRules.truncf_extf.statement Cert.KernelIdeal.S1024x16 .f32 .bf16

/-- From memories that agree on the arguments, with every position inside its table, both programs end with the
    scores. -/
theorem algebraic : Cert.algebraic_KernelIdeal_ReferenceIdeal := by
  intro m ρ m' ρ' hpre hagree
  have hr := fun c => Cert.PreRange.ranges _ _ _ _ _ _ _ _ (hpre c)
  refine ⟨fun c => Cert.Score.G (argA m c) (argB m c) (argC m c) (argW m c) (argb m c) (argi m c) (argj m c) (argk m c),
    Cert.KernelIdeal.KernelValue.kernel_run m ρ (fun c => (hr c).1) (fun c => (hr c).2.1) (fun c => (hr c).2.2), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  refine (Cert.ReferenceIdeal.Read.val_main_v34_eq _ _ _ _ _ _ _ _).trans ?_
  refine (Cert.ReferenceIdeal.RefValue.ref_eq_G _ _ _ _ _ _ _ _
    (fun n => by rw [e5]; exact ((hr c).1 n).1) (fun n => by rw [e6]; exact ((hr c).2.1 n).1)
    (fun n => by rw [e7]; exact ((hr c).2.2 n).1)).trans ?_
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
